-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x576 : Shape := ⟨2, ![200000, 576]⟩
abbrev S1728 : Shape := ⟨1, ![1728]⟩
abbrev S1728x4 : Shape := ⟨2, ![1728, 4]⟩
abbrev S_ : Shape := ⟨0, ![]⟩

class Facts : Prop where
  bcast_S_S200000x576 : S_.BroadcastsInDim S200000x576 (![] : Fin 0 → Fin S200000x576.rank)
  reducesTo_S200000x576_S_d0_1 : S200000x576.ReducesTo [0, 1] S_
  h_S_ : 0 < S_.numel
  bcast_S_S1728 : S_.BroadcastsInDim S1728 (![] : Fin 0 → Fin S1728.rank)
  reducesTo_S1728_S_d0 : S1728.ReducesTo [0] S_
  bcast_S_S1728x4 : S_.BroadcastsInDim S1728x4 (![] : Fin 0 → Fin S1728x4.rank)
  reducesTo_S1728x4_S_d0_1 : S1728x4.ReducesTo [0, 1] S_

variable [Facts]

def fn {F : FTy → Type} [FloatOps F] (main_arg0 : FVec F S200000x576 .f32) (main_arg1 : FVec F S1728 .f32) (main_arg2 : FVec F S1728x4 .f32) : IVec S_ 1 :=
  let main_v0 : FVec F S200000x576 .f32 := Host.absf main_arg0
  let main_cst : FVec F S_ .f32 := constant S_ .f32 0x7F800000#32
  let main_v1 : FVec F S200000x576 .f32 := broadcastInDim S200000x576 ![] bcast_S_S200000x576 main_cst
  let main_v2 : IVec S200000x576 1 := cmpf .olt main_v0 main_v1
  let main_c : IVec S_ 1 := constantI S_ 1 1#1
  let main_v3 : IVec S_ 1 := (fun x v => Host.reduce IntOp.andi x v reducesTo_S200000x576_S_d0_1 h_S_) main_v2 main_c
  let main_v4 : FVec F S1728 .f32 := Host.absf main_arg1
  let main_cst_0 : FVec F S_ .f32 := constant S_ .f32 0x7F800000#32
  let main_v5 : FVec F S1728 .f32 := broadcastInDim S1728 ![] bcast_S_S1728 main_cst_0
  let main_v6 : IVec S1728 1 := cmpf .olt main_v4 main_v5
  let main_c_1 : IVec S_ 1 := constantI S_ 1 1#1
  let main_v7 : IVec S_ 1 := (fun x v => Host.reduce IntOp.andi x v reducesTo_S1728_S_d0 h_S_) main_v6 main_c_1
  let main_v8 : IVec S_ 1 := andi main_v3 main_v7
  let main_v9 : FVec F S1728x4 .f32 := Host.absf main_arg2
  let main_cst_2 : FVec F S_ .f32 := constant S_ .f32 0x7F800000#32
  let main_v10 : FVec F S1728x4 .f32 := broadcastInDim S1728x4 ![] bcast_S_S1728x4 main_cst_2
  let main_v11 : IVec S1728x4 1 := cmpf .olt main_v9 main_v10
  let main_c_3 : IVec S_ 1 := constantI S_ 1 1#1
  let main_v12 : IVec S_ 1 := (fun x v => Host.reduce IntOp.andi x v reducesTo_S1728x4_S_d0_1 h_S_) main_v11 main_c_3
  let main_v13 : IVec S_ 1 := andi main_v8 main_v12
  main_v13
-- ==== Kernel.lean ====
abbrev S200000x576 : Shape := ⟨2, ![200000, 576]⟩
abbrev S1728 : Shape := ⟨1, ![1728]⟩
abbrev S1728x4 : Shape := ⟨2, ![1728, 4]⟩
abbrev S1x576 : Shape := ⟨2, ![1, 576]⟩
abbrev S5000x576 : Shape := ⟨2, ![5000, 576]⟩
abbrev S576 : Shape := ⟨1, ![576]⟩
abbrev S_ : Shape := ⟨0, ![]⟩
abbrev S576x1 : Shape := ⟨2, ![576, 1]⟩
abbrev S576x3 : Shape := ⟨2, ![576, 3]⟩
abbrev S1x1728 : Shape := ⟨2, ![1, 1728]⟩
abbrev S1x4 : Shape := ⟨2, ![1, 4]⟩

abbrev nBuf : Space → Nat
  | .hbm => 26
  | .vmem => 6
  | .smem => 0
  | _ => 0

abbrev bufTy : (tb : Table) → Fin (tcTables nBuf tb) → BufTy
  | .hbm, ⟨0, _⟩ => ⟨S200000x576, .f32⟩
  | .hbm, ⟨1, _⟩ => ⟨S1728, .f32⟩
  | .hbm, ⟨2, _⟩ => ⟨S1728x4, .f32⟩
  | .hbm, ⟨3, _⟩ => ⟨S1x576, .f32⟩
  | .hbm, ⟨4, _⟩ => ⟨S1x576, .f32⟩
  | .hbm, ⟨5, _⟩ => ⟨S_, .f32⟩
  | .hbm, ⟨6, _⟩ => ⟨S1x576, .f32⟩
  | .hbm, ⟨7, _⟩ => ⟨S1x576, .f32⟩
  | .hbm, ⟨8, _⟩ => ⟨S_, .f32⟩
  | .hbm, ⟨9, _⟩ => ⟨S1x576, .f32⟩
  | .hbm, ⟨10, _⟩ => ⟨S_, .f32⟩
  | .hbm, ⟨11, _⟩ => ⟨S1x576, .f32⟩
  | .hbm, ⟨12, _⟩ => ⟨S1x576, .f32⟩
  | .hbm, ⟨13, _⟩ => ⟨S1x576, .f32⟩
  | .hbm, ⟨14, _⟩ => ⟨S1x576, .f32⟩
  | .hbm, ⟨15, _⟩ => ⟨S576, .f32⟩
  | .hbm, ⟨16, _⟩ => ⟨S576, .f32⟩
  | .hbm, ⟨17, _⟩ => ⟨S576, .f32⟩
  | .hbm, ⟨18, _⟩ => ⟨S576x1, .f32⟩
  | .hbm, ⟨19, _⟩ => ⟨S576x1, .f32⟩
  | .hbm, ⟨20, _⟩ => ⟨S576x1, .f32⟩
  | .hbm, ⟨21, _⟩ => ⟨S576x3, .f32⟩
  | .hbm, ⟨22, _⟩ => ⟨S1x1728, .f32⟩
  | .hbm, ⟨23, _⟩ => ⟨S1x1728, .f32⟩
  | .hbm, ⟨24, _⟩ => ⟨S1x1728, .f32⟩
  | .hbm, ⟨25, _⟩ => ⟨S1x4, .f32⟩
  | .local _ .vmem, ⟨0, _⟩ => ⟨S5000x576, .f32⟩
  | .local _ .vmem, ⟨1, _⟩ => ⟨S5000x576, .f32⟩
  | .local _ .vmem, ⟨2, _⟩ => ⟨S1x576, .f32⟩
  | .local _ .vmem, ⟨3, _⟩ => ⟨S1x576, .f32⟩
  | .local _ .vmem, ⟨4, _⟩ => ⟨S1x576, .f32⟩
  | .local _ .vmem, ⟨5, _⟩ => ⟨S1x576, .f32⟩
  | _, _ => ⟨S200000x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v19 : BitVec 1 := Scalar.cmpi .eq arg0 c39_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x576_S1x576_0_0 : ∀ a, (![0, 0] : Fin 2 → Nat) a + S1x576.size a ≤ S1x576.size a
  h_S1x576 : 0 < S1x576.numel
  shapeCasts_S1x576_S1x576 : S1x576.ShapeCasts S1x576
  inb_S5000x576_S5000x576_0_0 : ∀ a, (![0, 0] : Fin 2 → Nat) a + S5000x576.size a ≤ S5000x576.size a
  h_S5000x576 : 0 < S5000x576.numel
  reduces_S5000x576_S576 : S5000x576.Reduces [0] S576
  shapeCasts_S576_S1x576 : S576.ShapeCasts S1x576
  bcast_S_S1x576 : S_.BroadcastsInDim S1x576 (![] : Fin 0 → Fin S1x576.rank)
  shapeCasts_S1x576_S576 : S1x576.ShapeCasts S576
  bcast_S576_S576x1_0 : S576.BroadcastsInDim S576x1 (![0] : Fin 1 → Fin S576x1.rank)
  concatenates_S576x1_S576x1_S576x1_S576x3_d1 : Shape.Concatenates [S576x1, S576x1, S576x1] S576x3 1
  shapeCasts_S576x3_S1x1728 : S576x3.ShapeCasts S1x1728
  bcast_S1728_S1x1728_1 : S1728.BroadcastsInDim S1x1728 (![1] : Fin 1 → Fin S1x1728.rank)
  dot_S1x1728_S1728x4_S1x4_1_0_0_1_n_n_wf : DotDims.WF S1x1728 S1728x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x576.size a ≤ S200000x576.size a
  hwx0_0 : ∀ i : grid0.Coords, EltTy.bits .f32 = 32 ∨ (Rect.block (s := S200000x576) S5000x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x576.size a ≤ S1x576.size a
  hwx0_1 : ∀ i : grid0.Coords, EltTy.bits .f32 = 32 ∨ (Rect.block (s := S1x576) S1x576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x576.size a ≤ S1x576.size a
  hwx0_2 : ∀ i : grid0.Coords, EltTy.bits .f32 = 32 ∨ (Rect.block (s := S1x576) S1x576.size (cc0_transform_2 i) (hinb0_2 i)).WholeWords (EltTy.packing .f32)

variable [Facts₀]

def dot_S1x1728_S1728x4_S1x4_1_0_0_1_n_n : DotDims S1x1728 S1728x4 S1x4 where
  lhsContracting := [1]
  rhsContracting := [0]
  lhsNonContracting := [0]
  rhsNonContracting := [1]
  lhsBatch := []
  rhsBatch := []
  wf := dot_S1x1728_S1728x4_S1x4_1_0_0_1_n_n_wf

abbrev win0_0 : Pipeline.Window sig grid0 :=
  Pipeline.Window.ofSpec (Memref.whole main_arg0) S5000x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x576.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x576.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200000x576 : Shape := ⟨2, ![200000, 576]⟩
abbrev S1728 : Shape := ⟨1, ![1728]⟩
abbrev S1728x4 : Shape := ⟨2, ![1728, 4]⟩
abbrev S_ : Shape := ⟨0, ![]⟩
abbrev S576 : Shape := ⟨1, ![576]⟩
abbrev S1x576 : Shape := ⟨2, ![1, 576]⟩
abbrev S576x1 : Shape := ⟨2, ![576, 1]⟩
abbrev S576x3 : Shape := ⟨2, ![576, 3]⟩
abbrev S1x1728 : Shape := ⟨2, ![1, 1728]⟩
abbrev S1x4 : Shape := ⟨2, ![1, 4]⟩

abbrev nBuf : Space → Nat
  | .hbm => 30
  | .vmem => 0
  | .smem => 0
  | _ => 0

abbrev bufTy : (tb : Table) → Fin (tcTables nBuf tb) → BufTy
  | .hbm, ⟨0, _⟩ => ⟨S200000x576, .f32⟩
  | .hbm, ⟨1, _⟩ => ⟨S1728, .f32⟩
  | .hbm, ⟨2, _⟩ => ⟨S1728x4, .f32⟩
  | .hbm, ⟨3, _⟩ => ⟨S_, .f32⟩
  | .hbm, ⟨4, _⟩ => ⟨S576, .f32⟩
  | .hbm, ⟨5, _⟩ => ⟨S_, .f32⟩
  | .hbm, ⟨6, _⟩ => ⟨S576, .f32⟩
  | .hbm, ⟨7, _⟩ => ⟨S576, .f32⟩
  | .hbm, ⟨8, _⟩ => ⟨S1x576, .f32⟩
  | .hbm, ⟨9, _⟩ => ⟨S200000x576, .f32⟩
  | .hbm, ⟨10, _⟩ => ⟨S200000x576, .f32⟩
  | .hbm, ⟨11, _⟩ => ⟨S_, .f32⟩
  | .hbm, ⟨12, _⟩ => ⟨S576, .f32⟩
  | .hbm, ⟨13, _⟩ => ⟨S_, .f32⟩
  | .hbm, ⟨14, _⟩ => ⟨S576, .f32⟩
  | .hbm, ⟨15, _⟩ => ⟨S576, .f32⟩
  | .hbm, ⟨16, _⟩ => ⟨S200000x576, .f32⟩
  | .hbm, ⟨17, _⟩ => ⟨S_, .f32⟩
  | .hbm, ⟨18, _⟩ => ⟨S576, .f32⟩
  | .hbm, ⟨19, _⟩ => ⟨S_, .f32⟩
  | .hbm, ⟨20, _⟩ => ⟨S576, .f32⟩
  | .hbm, ⟨21, _⟩ => ⟨S576, .f32⟩
  | .hbm, ⟨22, _⟩ => ⟨S576x1, .f32⟩
  | .hbm, ⟨23, _⟩ => ⟨S576x1, .f32⟩
  | .hbm, ⟨24, _⟩ => ⟨S576x1, .f32⟩
  | .hbm, ⟨25, _⟩ => ⟨S576x3, .f32⟩
  | .hbm, ⟨26, _⟩ => ⟨S1x1728, .f32⟩
  | .hbm, ⟨27, _⟩ => ⟨S1x1728, .f32⟩
  | .hbm, ⟨28, _⟩ => ⟨S1x1728, .f32⟩
  | .hbm, ⟨29, _⟩ => ⟨S1x4, .f32⟩
  | _, _ => ⟨S200000x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S200000x576_S576_d0 : S200000x576.ReducesTo [0] S576
  h_S_ : 0 < S_.numel
  bcast_S_S576 : S_.BroadcastsInDim S576 (![] : Fin 0 → Fin S576.rank)
  bcast_S576_S1x576_1 : S576.BroadcastsInDim S1x576 (![1] : Fin 1 → Fin S1x576.rank)
  bcast_S1x576_S200000x576_0_1 : S1x576.BroadcastsInDim S200000x576 (![0, 1] : Fin 2 → Fin S200000x576.rank)
  bcast_S576_S576x1_0 : S576.BroadcastsInDim S576x1 (![0] : Fin 1 → Fin S576x1.rank)
  concatenates_S576x1_S576x1_S576x1_S576x3_d1 : Shape.Concatenates [S576x1, S576x1, S576x1] S576x3 1
  shapeCasts_S576x3_S1x1728 : S576x3.ShapeCasts S1x1728
  bcast_S1728_S1x1728_1 : S1728.BroadcastsInDim S1x1728 (![1] : Fin 1 → Fin S1x1728.rank)
  dot_S1x1728_S1728x4_S1x4_1_0_0_1_n_n_wf : DotDims.WF S1x1728 S1728x4 S1x4 [1] [0] [0] [1] [] []

variable [Facts₀]

def dot_S1x1728_S1728x4_S1x4_1_0_0_1_n_n : DotDims S1x1728 S1728x4 S1x4 where
  lhsContracting := [1]
  rhsContracting := [0]
  lhsNonContracting := [0]
  rhsNonContracting := [1]
  lhsBatch := []
  rhsBatch := []
  wf := dot_S1x1728_S1728x4_S1x4_1_0_0_1_n_n_wf

class Facts : Prop extends Facts₀ where

variable [Facts]
-- ==== Proof.KernelRegion.lean ====
/-
  The one kernel launch of this program and what surrounds it.

  The program launches the moments kernel first, over a grid of 40 points, and then runs 21 host operations on
  the kernel's two results. This file fixes the contents the launch starts from, shows that the program is the
  launch followed by those operations (which touch no scoped buffer, allocate nothing and never write one of the
  launch's three arrays), names the tile of 5000 rows that the first window holds at each point, decides at
  which points the kernel's two conditionals fire (the reset at the first point, the copy-out at the last) and
  at which points the two result windows are idle, and spells the launch's invariant over the kernel's two
  scratch accumulators.
-/
import proofs.«116832_j78176994722585_1_alg».proof.Proof.Gen.Kernel.Launch
import proofs.«116832_j78176994722585_1_alg».proof.Proof.Gen.Kernel.Skeleton
import proofs.«116832_j78176994722585_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's surroundings -/

/-- What core `c`'s buffers hold when the launch begins: no host operation comes before it, so the memory the
    program started from. -/
abbrev entry0 (c : Dev nD) : Valuation τ sig (Elt F) := StableHlo.after (List.flatten []) (fun b => m (c, b))
/-- The same read at one buffer. -/
abbrev entry (c : Dev nD) (b : Ref sig .tc) : Buf (Elt F) ((c : Thread nD τ).loc b) := entry0 m c (Proc.devRef .tc b)

theorem entry_arg0 (c : Dev nD) : entry m c main_arg0 = m ((c : Thread nD τ).loc main_arg0) := rfl
theorem entry_arg1 (c : Dev nD) : entry m c main_arg1 = m ((c : Thread nD τ).loc main_arg1) := rfl
theorem entry_arg2 (c : Dev nD) : entry m c main_arg2 = m ((c : Thread nD τ).loc main_arg2) := rfl

/-- The 21 operations after the launch allocate nothing. -/
theorem tail_fresh0 : (hostOps1 : List (HloOp τ sig (Elt F))).Forall fun op => op.fresh = ∅ := by
  simp only [List.Forall]; repeat' constructor

/-- The program is the launch continued by the 21 operations. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [] [hostOps1] (by simp only [List.Forall])
    (by simp only [List.Forall]) main_chain

/-- Those operations touch only the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh0) op hop

/-- Each of them writes its own result buffer only, and none of those is the table or one of the kernel's results. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## The table's tiles -/

/-- The block the first window holds at point `t`: rows `5000 t … 5000 t + 4999` of the table as the launch finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The first window's buffer holds its tile at every point (it is fetched at each), for any proof data whose
    first array is the table and whose body leaves the tile in place. -/
theorem holds_tile {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-! ## The two conditionals, decided over the grid -/

/-- The reset's condition, as the kernel computes it from the grid coordinate. -/
abbrev isFirst (i : grid0.Coords) : Prop := (Scalar.cmpi .ne (Scalar.extui (Scalar.cmpi .eq (BitVec.ofNat 32 (i 0).val) 0#32)) 0#32) = 1#1
/-- It fires at the first point only. -/
theorem isFirst_iff : ∀ t : Fin cfg0.N, isFirst (grid0.coords t) ↔ t.val = 0 :=
  (by decide +kernel : ∀ t : Fin grid0.N, isFirst (grid0.coords t) ↔ t.val = 0)

/-- The copy-out's condition. -/
abbrev isLast (i : grid0.Coords) : Prop := k0_cond2 i = 1#1
/-- It fires at the last point only. -/
theorem isLast_iff : ∀ t : Fin cfg0.N, isLast (grid0.coords t) ↔ t.val = 39 :=
  (by decide +kernel : ∀ t : Fin grid0.N, isLast (grid0.coords t) ↔ t.val = 39)

/-- The table's window is never idle. -/
theorem live_0 : ∀ t : Fin cfg0.N, cfg0.idle 0 (grid0.coords t) = false := by decide +kernel
/-- Before the last point the result windows are idle (the body stores nothing into them) and are not written back. -/
theorem idle_1 : ∀ t : Fin cfg0.N, ¬isLast (grid0.coords t) → cfg0.idle 1 (grid0.coords t) = true := by decide +kernel
theorem idle_2 : ∀ t : Fin cfg0.N, ¬isLast (grid0.coords t) → cfg0.idle 2 (grid0.coords t) = true := by decide +kernel
theorem noFlush_1 : ∀ t : Fin cfg0.N, ¬isLast (grid0.coords t) → (cfg0.win 1).flush t = false := by decide +kernel
theorem noFlush_2 : ∀ t : Fin cfg0.N, ¬isLast (grid0.coords t) → (cfg0.win 2).flush t = false := by decide +kernel
/-- At the last point they are live. -/
theorem live_1 : ∀ t : Fin cfg0.N, isLast (grid0.coords t) → cfg0.idle 1 (grid0.coords t) = false := by decide +kernel
theorem live_2 : ∀ t : Fin cfg0.N, isLast (grid0.coords t) → cfg0.idle 2 (grid0.coords t) = false := by decide +kernel

/-! ## The buffers the body runs on -/

/-- One buffer of each result window and the two scratch accumulators, as views: contents are stated through them. -/
abbrev VO1 : View sig .tc .vmem S1x576 .f32 := (Memref.whole cc0_stg1_0 : Memref sig .tc .vmem S1x576 .f32).view
abbrev VO2 : View sig .tc .vmem S1x576 .f32 := (Memref.whole cc0_stg2_0 : Memref sig .tc .vmem S1x576 .f32).view
abbrev sc1 : Memref sig .tc .vmem S1x576 .f32 := Memref.whole cc0_scratch0
abbrev sc2 : Memref sig .tc .vmem S1x576 .f32 := Memref.whole cc0_scratch1
abbrev VS1 : View sig .tc .vmem S1x576 .f32 := sc1.view
abbrev VS2 : View sig .tc .vmem S1x576 .f32 := sc2.view
/-- Each window's current buffer at point `t`, as the launch passes it to the body. -/
abbrev ms0 (t : Fin cfg0.N) : Memref sig .tc .vmem S5000x576 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x576 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x576 .f32 := win0_2.stage (cfg0.slots t 2)
abbrev hs2 (t : Fin cfg0.N) : (ms2 t).IsWhole := hstage0_2 ((cfg0.slots t 2).cast nbuf0_2)

/-- The launch's invariant: the two scratch accumulators owned at some contents, and the generator register. -/
theorem inv_eq (c : Dev nD) :
    (Pipeline.ΦA spec0 c : sProp 𝕄)
      = iprop(iprop((∃ d, owns (c : Thread nD τ) sc1 fullShare d) ∗ (∃ d, owns (c : Thread nD τ) sc2 fullShare d)) ∗ (∃ r, prngReg c r)) := by
  unfold Pipeline.ΦA; rw [scopedRest0_eq]; simp only [sc1, sc2, owns_whole]; try rfl

end Cert.Kernel.Region

end
-- ==== Proof.KernelBody.lean ====
/-
  The kernel body run once in each of the three situations the grid meets.

  At the first point the body zeroes both accumulators, then adds the tile's column sums (and the column sums of
  its squares) to them; at a middle point it only adds; at the last point it adds and then copies both
  accumulators into the two result buffers. In each situation the run below starts from the tile in the first
  window's buffer and ends with every buffer's contents given as the list of blocks the body stored into it.
-/
import proofs.«116832_j78176994722585_1_alg».proof.Proof.KernelRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: both conditionals decided (the reset fires, the copy-out does not). The tile's buffer and the two
    idle result buffers come back as they were; each accumulator, whatever it held, ends with the blocks stored into it. -/
noncomputable def runFirst (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole) (hc0 : isFirst i) (hc1 : ¬isLast i)
    (x0 : Vec F S5000x576 .f32) :
    Σ' (LS1 : List (View.Piece (Elt F) S1x576 .f32)), { LS2 : List (View.Piece (Elt F) S1x576 .f32) //
      ∀ (xi1 xi2 : Vec F S1x576 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS1)
                ∗ (∃ f, arg5.view.loc (c : Thread nD τ) ↦[arg5.view.set]{fullShare} arg5.view.writes (Elt F) f LS2)) -∗ K ⟨⟩))
          ⊢ wp frame (wpE (defs₀ (F := F)) Variants.none c none) E (cc0__moments_kernel i arg1 harg1 arg2 harg2 arg3 harg3 arg4 harg4 arg5 harg5) K } := by
  refine ⟨?_, ?_, fun xi1 xi2 E K => ?run⟩
  case run =>
    simp only [cc0__moments_kernel_eq_skeleton]; unfold cc0__moments_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- A middle point: neither conditional fires. The accumulators start at what the point before left (`xs1`, `xs2`). -/
noncomputable def runMid (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole) (hc0 : ¬isFirst i) (hc1 : ¬isLast i)
    (x0 : Vec F S5000x576 .f32) (xs1 xs2 : Vec F S1x576 .f32) :
    Σ' (LS1 : List (View.Piece (Elt F) S1x576 .f32)), { LS2 : List (View.Piece (Elt F) S1x576 .f32) //
      ∀ (xi1 xi2 : Vec F S1x576 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs1 ∗ owns (c : Thread nD τ) arg5 fullShare xs2
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS1)
                ∗ (∃ f, arg5.view.loc (c : Thread nD τ) ↦[arg5.view.set]{fullShare} arg5.view.writes (Elt F) f LS2)) -∗ K ⟨⟩))
          ⊢ wp frame (wpE (defs₀ (F := F)) Variants.none c none) E (cc0__moments_kernel i arg1 harg1 arg2 harg2 arg3 harg3 arg4 harg4 arg5 harg5) K } := by
  refine ⟨?_, ?_, fun xi1 xi2 E K => ?run⟩
  case run =>
    simp only [cc0__moments_kernel_eq_skeleton]; unfold cc0__moments_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- The last point: the reset does not fire, the copy-out does. The result buffers, whatever they held, end with the
    blocks stored into them. -/
noncomputable def runLast (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole) (hc0 : ¬isFirst i) (hc1 : isLast i)
    (x0 : Vec F S5000x576 .f32) (xs1 xs2 : Vec F S1x576 .f32) :
    Σ' (L1 : List (View.Piece (Elt F) S1x576 .f32)) (L2 : List (View.Piece (Elt F) S1x576 .f32)) (LS1 : List (View.Piece (Elt F) S1x576 .f32)), { LS2 : List (View.Piece (Elt F) S1x576 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs1 ∗ owns (c : Thread nD τ) arg5 fullShare xs2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS1)
                ∗ (∃ f, arg5.view.loc (c : Thread nD τ) ↦[arg5.view.set]{fullShare} arg5.view.writes (Elt F) f LS2)) -∗ K ⟨⟩))
          ⊢ wp frame (wpE (defs₀ (F := F)) Variants.none c none) E (cc0__moments_kernel i arg1 harg1 arg2 harg2 arg3 harg3 arg4 harg4 arg5 harg5) K } := by
  refine ⟨?_, ?_, ?_, ?_, fun E K => ?run⟩
  case run =>
    simp only [cc0__moments_kernel_eq_skeleton]; unfold cc0__moments_kernel_skel
    unfold owns
    iintro ⟨⟨%f1, %hf1, H1⟩, ⟨%d2, %f2, -, H2⟩, ⟨%d3, %f3, -, H3⟩, ⟨%f4, %hf4, H4⟩, ⟨%f5, %hf5, H5⟩, Hk⟩
    obtain rfl := harg1.eq_unread hf1
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]; · iexists _; iexact H2
    isplitl [H3]; · iexists _; iexact H3
    isplitl [H4]; · iexists _; iexact H4
    iexists _; iexact H5

end Cert.Kernel.Region

end
-- ==== Proof.KernelFrame.lean ====
/-
  The launch runs to its end: every point's body, the accumulators carried from point to point, and the frame.

  After point `n` the two scratch accumulators hold what the body's stores at that point left over what point
  `n − 1` left (at the first point: over nothing, the reset covers them). The two result buffers are touched at the
  last point only, where the body copies the accumulators into them; until then they are idle and handed back as
  found. With these contents as proof data, the body meets its obligation at each point by the case the point is
  in, the launch theorem for a kernel followed by host operations applies, and the three argument arrays end as
  they began: the table is only ever read through its window, and `mu` and `W` bypass the launch and are written
  by none of the operations after it.
-/
import proofs.«116832_j78176994722585_1_alg».proof.Proof.KernelBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

section Cases
variable (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole)

/-- First point: each accumulator's stored blocks tile it, -/
theorem coverFirst1 (hc0 : isFirst i) (hc1 : ¬isLast i) (x0 : Vec F S5000x576 .f32) (y : S1x576.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x576.size (by sl_kernel_rfl) y
theorem coverFirst2 (hc0 : isFirst i) (hc1 : ¬isLast i) (x0 : Vec F S5000x576 .f32) (y : S1x576.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x576.size (by sl_kernel_rfl) y
/-- and this is what they then hold. -/
def sFirst1 (hc0 : isFirst i) (hc1 : ¬isLast i) (x0 : Vec F S5000x576 .f32) : Vec F S1x576 .f32 :=
  VS1.read (Elt F) (VS1.writes (Elt F) VS1.junk (runFirst c i arg1 harg1 arg2 harg2 arg3 harg3 arg4 harg4 arg5 harg5 hc0 hc1 x0).1)
def sFirst2 (hc0 : isFirst i) (hc1 : ¬isLast i) (x0 : Vec F S5000x576 .f32) : Vec F S1x576 .f32 :=
  VS2.read (Elt F) (VS2.writes (Elt F) VS2.junk (runFirst c i arg1 harg1 arg2 harg2 arg3 harg3 arg4 harg4 arg5 harg5 hc0 hc1 x0).2.1)

/-- A middle point, from accumulators at `xs1`, `xs2`. -/
theorem coverMid1 (hc0 : ¬isFirst i) (hc1 : ¬isLast i) (x0 : Vec F S5000x576 .f32) (xs1 xs2 : Vec F S1x576 .f32) (y : S1x576.Idx) :
    ∃ pc ∈ (runMid c i arg1 harg1 arg2 harg2 arg3 harg3 arg4 harg4 arg5 harg5 hc0 hc1 x0 xs1 xs2).1, y ∈ pc.1.set :=
  View.cover_of_tiledL (runMid c i arg1 harg1 arg2 harg2 arg3 harg3 arg4 harg4 arg5 harg5 hc0 hc1 x0 xs1 xs2).1 S1x576.size (by sl_kernel_rfl) y
theorem coverMid2 (hc0 : ¬isFirst i) (hc1 : ¬isLast i) (x0 : Vec F S5000x576 .f32) (xs1 xs2 : Vec F S1x576 .f32) (y : S1x576.Idx) :
    ∃ pc ∈ (runMid c i arg1 harg1 arg2 harg2 arg3 harg3 arg4 harg4 arg5 harg5 hc0 hc1 x0 xs1 xs2).2.1, y ∈ pc.1.set :=
  View.cover_of_tiledL (runMid c i arg1 harg1 arg2 harg2 arg3 harg3 arg4 harg4 arg5 harg5 hc0 hc1 x0 xs1 xs2).2.1 S1x576.size (by sl_kernel_rfl) y
def sMid1 (hc0 : ¬isFirst i) (hc1 : ¬isLast i) (x0 : Vec F S5000x576 .f32) (xs1 xs2 : Vec F S1x576 .f32) : Vec F S1x576 .f32 :=
  VS1.read (Elt F) (VS1.writes (Elt F) VS1.junk (runMid c i arg1 harg1 arg2 harg2 arg3 harg3 arg4 harg4 arg5 harg5 hc0 hc1 x0 xs1 xs2).1)
def sMid2 (hc0 : ¬isFirst i) (hc1 : ¬isLast i) (x0 : Vec F S5000x576 .f32) (xs1 xs2 : Vec F S1x576 .f32) : Vec F S1x576 .f32 :=
  VS2.read (Elt F) (VS2.writes (Elt F) VS2.junk (runMid c i arg1 harg1 arg2 harg2 arg3 harg3 arg4 harg4 arg5 harg5 hc0 hc1 x0 xs1 xs2).2.1)

/-- The last point: the two result buffers and the two accumulators. -/
theorem coverLastO1 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).1, y ∈ pc.1.set :=
  View.cover_of_tiledL (runLast c i arg1 harg1 arg2 harg2 arg3 harg3 arg4 harg4 arg5 harg5 hc0 hc1 x0 xs1 xs2).1 S1x576.size (by sl_kernel_rfl) y
theorem coverLastO2 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).2.1, y ∈ pc.1.set :=
  View.cover_of_tiledL (runLast c i arg1 harg1 arg2 harg2 arg3 harg3 arg4 harg4 arg5 harg5 hc0 hc1 x0 xs1 xs2).2.1 S1x576.size (by sl_kernel_rfl) y
theorem coverLast1 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).2.2.1, y ∈ pc.1.set :=
  View.cover_of_tiledL (runLast c i arg1 harg1 arg2 harg2 arg3 harg3 arg4 harg4 arg5 harg5 hc0 hc1 x0 xs1 xs2).2.2.1 S1x576.size (by sl_kernel_rfl) y
theorem coverLast2 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).2.2.2.1, y ∈ pc.1.set :=
  View.cover_of_tiledL (runLast c i arg1 harg1 arg2 harg2 arg3 harg3 arg4 harg4 arg5 harg5 hc0 hc1 x0 xs1 xs2).2.2.2.1 S1x576.size (by sl_kernel_rfl) y
def oLast1 (hc0 : ¬isFirst i) (hc1 : isLast i) (x0 : Vec F S5000x576 .f32) (xs1 xs2 : Vec F S1x576 .f32) : Vec F S1x576 .f32 :=
  VO1.read (Elt F) (VO1.writes (Elt F) VO1.junk (runLast c i arg1 harg1 arg2 harg2 arg3 harg3 arg4 harg4 arg5 harg5 hc0 hc1 x0 xs1 xs2).1)
def oLast2 (hc0 : ¬isFirst i) (hc1 : isLast i) (x0 : Vec F S5000x576 .f32) (xs1 xs2 : Vec F S1x576 .f32) : Vec F S1x576 .f32 :=
  VO2.read (Elt F) (VO2.writes (Elt F) VO2.junk (runLast c i arg1 harg1 arg2 harg2 arg3 harg3 arg4 harg4 arg5 harg5 hc0 hc1 x0 xs1 xs2).2.1)
def sLast1 (hc0 : ¬isFirst i) (hc1 : isLast i) (x0 : Vec F S5000x576 .f32) (xs1 xs2 : Vec F S1x576 .f32) : Vec F S1x576 .f32 :=
  VS1.read (Elt F) (VS1.writes (Elt F) VS1.junk (runLast c i arg1 harg1 arg2 harg2 arg3 harg3 arg4 harg4 arg5 harg5 hc0 hc1 x0 xs1 xs2).2.2.1)
def sLast2 (hc0 : ¬isFirst i) (hc1 : isLast i) (x0 : Vec F S5000x576 .f32) (xs1 xs2 : Vec F S1x576 .f32) : Vec F S1x576 .f32 :=
  VS2.read (Elt F) (VS2.writes (Elt F) VS2.junk (runLast c i arg1 harg1 arg2 harg2 arg3 harg3 arg4 harg4 arg5 harg5 hc0 hc1 x0 xs1 xs2).2.2.2.1)

end Cases

/-! ## The accumulators, point by point -/

/-- What the two accumulators hold after point `n`: the point's case run on the point's buffers and tile, from what the
    point before left. -/
def accs (c : Dev nD) : (n : ℕ) → n < cfg0.N → Vec F S1x576 .f32 × Vec F S1x576 .f32
  | 0, hn => (sFirst1 c (grid0.coords ⟨0, hn⟩) (ms0 ⟨0, hn⟩) (hs0 ⟨0, hn⟩) (ms1 ⟨0, hn⟩) (hs1 ⟨0, hn⟩) (ms2 ⟨0, hn⟩) (hs2 ⟨0, hn⟩) sc1 (Memref.isWhole_whole _) sc2 (Memref.isWhole_whole _) ((isFirst_iff ⟨0, hn⟩).mpr rfl) (fun h => absurd ((isLast_iff ⟨0, hn⟩).mp h) (show ¬(0 : ℕ) = 39 by decide)) (tile m c 0 ⟨0, hn⟩),
              sFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) sc1 (Memref.isWhole_whole _) sc2 (Memref.isWhole_whole _) ((isFirst_iff ⟨0, hn⟩).mpr rfl) (fun h => absurd ((isLast_iff ⟨0, hn⟩).mp h) (show ¬(0 : ℕ) = 39 by decide)) (tile m c 0 ⟨0, hn⟩))
  | n + 1, hn =>
    if h : n + 1 = 39 then
      (sLast1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) ((isLast_iff ⟨n + 1, hn⟩).mpr h) (tile m c 0 ⟨n + 1, hn⟩) (accs c n (Nat.lt_of_succ_lt hn)).1 (accs c n (Nat.lt_of_succ_lt hn)).2,
       sLast2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) ((isLast_iff ⟨n + 1, hn⟩).mpr h) (tile m c 0 ⟨n + 1, hn⟩) (accs c n (Nat.lt_of_succ_lt hn)).1 (accs c n (Nat.lt_of_succ_lt hn)).2)
    else
      (sMid1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) (fun h' => h ((isLast_iff ⟨n + 1, hn⟩).mp h')) (tile m c 0 ⟨n + 1, hn⟩) (accs c n (Nat.lt_of_succ_lt hn)).1 (accs c n (Nat.lt_of_succ_lt hn)).2,
       sMid2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) (fun h' => h ((isLast_iff ⟨n + 1, hn⟩).mp h')) (tile m c 0 ⟨n + 1, hn⟩) (accs c n (Nat.lt_of_succ_lt hn)).1 (accs c n (Nat.lt_of_succ_lt hn)).2)

/-- What the point before `t` left (read at `t − 1`; only consulted after the first point). -/
abbrev prev (c : Dev nD) (t : Fin cfg0.N) : Vec F S1x576 .f32 × Vec F S1x576 .f32 :=
  accs m c (t.val - 1) (Nat.lt_of_le_of_lt (Nat.sub_le _ _) t.isLt)

theorem accs_first (c : Dev nD) (t : Fin cfg0.N) (h0 : t.val = 0) (h1 : ¬t.val = 39) :
    accs m c t.val t.isLt = (sFirst1 c (grid0.coords t) (ms0 t) (hs0 t) (ms1 t) (hs1 t) (ms2 t) (hs2 t) sc1 (Memref.isWhole_whole _) sc2 (Memref.isWhole_whole _) ((isFirst_iff t).mpr h0) (fun h => h1 ((isLast_iff t).mp h)) (tile m c 0 t),
      sFirst2 c (grid0.coords t) (ms0 t) (hs0 t) (ms1 t) (hs1 t) (ms2 t) (hs2 t) sc1 (Memref.isWhole_whole _) sc2 (Memref.isWhole_whole _) ((isFirst_iff t).mpr h0) (fun h => h1 ((isLast_iff t).mp h)) (tile m c 0 t)) := by
  obtain ⟨n, hn⟩ := t
  cases n with
  | zero => exact rfl
  | succ n => exact absurd h0 (Nat.succ_ne_zero n)

theorem accs_mid (c : Dev nD) (t : Fin cfg0.N) (h0 : ¬t.val = 0) (h1 : ¬t.val = 39) :
    accs m c t.val t.isLt = (sMid1 c (grid0.coords t) (ms0 t) (hs0 t) (ms1 t) (hs1 t) (ms2 t) (hs2 t) sc1 (Memref.isWhole_whole _) sc2 (Memref.isWhole_whole _) (fun h => h0 ((isFirst_iff t).mp h)) (fun h => h1 ((isLast_iff t).mp h)) (tile m c 0 t) (prev m c t).1 (prev m c t).2,
      sMid2 c (grid0.coords t) (ms0 t) (hs0 t) (ms1 t) (hs1 t) (ms2 t) (hs2 t) sc1 (Memref.isWhole_whole _) sc2 (Memref.isWhole_whole _) (fun h => h0 ((isFirst_iff t).mp h)) (fun h => h1 ((isLast_iff t).mp h)) (tile m c 0 t) (prev m c t).1 (prev m c t).2) := by
  obtain ⟨n, hn⟩ := t
  cases n with
  | zero => exact absurd rfl h0
  | succ n => exact (dif_neg h1).trans rfl

theorem accs_last (c : Dev nD) (t : Fin cfg0.N) (h0 : ¬t.val = 0) (h1 : t.val = 39) :
    accs m c t.val t.isLt = (sLast1 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2,
      sLast2 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2) := by
  obtain ⟨n, hn⟩ := t
  cases n with
  | zero => exact absurd rfl h0
  | succ n => exact (dif_pos h1).trans rfl

/-- What the two result buffers hold after the body at point `t`: at the last point the copies of the accumulators;
    before it nothing is stated (the buffers are idle there and this is never consulted). -/
def outs (c : Dev nD) (t : Fin cfg0.N) : Vec F S1x576 .f32 × Vec F S1x576 .f32 :=
  if h : t.val = 39 then
    (oLast1 c (grid0.coords t) (ms0 t) (hs0 t) (ms1 t) (hs1 t) (ms2 t) (hs2 t) sc1 (Memref.isWhole_whole _) sc2 (Memref.isWhole_whole _) (fun h' => absurd ((isFirst_iff t).mp h') (by omega)) ((isLast_iff t).mpr h) (tile m c 0 t) (prev m c t).1 (prev m c t).2,
     oLast2 c (grid0.coords t) (ms0 t) (hs0 t) (ms1 t) (hs1 t) (ms2 t) (hs2 t) sc1 (Memref.isWhole_whole _) sc2 (Memref.isWhole_whole _) (fun h' => absurd ((isFirst_iff t).mp h') (by omega)) ((isLast_iff t).mpr h) (tile m c 0 t) (prev m c t).1 (prev m c t).2)
  else (VO1.read (Elt F) VO1.junk, VO2.read (Elt F) VO2.junk)

theorem outs_last (c : Dev nD) (t : Fin cfg0.N) (h0 : ¬t.val = 0) (h1 : t.val = 39) :
    outs m c t = (oLast1 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2,
      oLast2 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2) := by
  unfold outs; exact dif_pos h1

/-! ## The invariant and the proof data -/

/-- Before position `n`: at the start the launch's own invariant (the accumulators at anything); afterwards the
    accumulators at what point `n − 1` left, and the generator register at some state. -/
def PhiS (c : Dev nD) : (n : ℕ) → n ≤ cfg0.N → sProp 𝕄
  | 0, _ => Pipeline.ΦA spec0 c
  | n + 1, hn => iprop(iprop(owns (c : Thread nD τ) sc1 fullShare ((accs m c n hn).1) ∗ owns (c : Thread nD τ) sc2 fullShare ((accs m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc1 fullShare ((accs m c n hn).1) ∗ owns (c : Thread nD τ) sc2 fullShare ((accs m c n hn).2)) ∗ (∃ r, prngReg c r)) := rfl

theorem PhiS_pos (c : Dev nD) (n : ℕ) (h : n ≤ cfg0.N) (hz : n ≠ 0) :
    PhiS m c n h = iprop(iprop(owns (c : Thread nD τ) sc1 fullShare ((accs m c (n - 1) (by omega)).1) ∗ owns (c : Thread nD τ) sc2 fullShare ((accs m c (n - 1) (by omega)).2)) ∗ (∃ r, prngReg c r)) := by
  cases n with
  | zero => exact absurd rfl hz
  | succ n => rfl

/-- The proof data of the launch on core `c`. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => (outs m c t).1
    | ⟨2, _⟩ => (outs m c t).2
  Φ t := PhiS m c t.val (Nat.le_of_lt_succ t.isLt)
  q _ := fullShare
  owed _ := 0

theorem A_eq (c : Dev nD) (w : Fin cfg0.W) : (dats m 0 c).A w = entry m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = tile m c 0 t := by dsimp only [dats]
theorem after_1 (c : Dev nD) (t : Fin cfg0.N) : (dats m 0 c).after 1 t = (outs m c t).1 := by dsimp only [dats]
theorem after_2 (c : Dev nD) (t : Fin cfg0.N) : (dats m 0 c).after 2 t = (outs m c t).2 := by dsimp only [dats]

theorem before_0 (c : Dev nD) (t : Fin cfg0.N) (d) : (dats m 0 c).before 0 t d = tile m c 0 t :=
  holds_tile m (dats m 0 c) (A_eq m c 0) (after_0 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0 t) fullShare ((dats m 0 c).after 0 t) from by
    unfold Dat.leavesExact; rw [live_0 t], after_0]
  by_cases h1 : t.val = 39
  · have h0 : ¬t.val = 0 := by omega
    rw [show (dats m 0 c).leavesExact 1 t = owns (c : Thread nD τ) (ms1 t) fullShare ((dats m 0 c).after 1 t) from by
      unfold Dat.leavesExact; rw [live_1 t ((isLast_iff t).mpr h1)], after_1]
    rw [show (dats m 0 c).leavesExact 2 t = owns (c : Thread nD τ) (ms2 t) fullShare ((dats m 0 c).after 2 t) from by
      unfold Dat.leavesExact; rw [live_2 t ((isLast_iff t).mpr h1)], after_2]
    rw [accs_last m c t h0 h1, outs_last m c t h0 h1]
    unfold oLast1 oLast2 sLast1 sLast2; (try dsimp only)
    rw [PhiS_castSucc m c t, PhiS_pos m c _ _ h0]
    iintro ⟨⟨⟨HS1, HS2⟩, Hg⟩, Ho, ⟨%d0, H0⟩, ⟨%d1, H1⟩, ⟨%d2, H2⟩⟩
    iapply ((runLast c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) _ _).2.2.2.2 Set.univ _)
    isplitl [H0]; · iexact H0
    isplitl [H1]; · iexists _; iexact H1
    isplitl [H2]; · iexists _; iexact H2
    isplitl [HS1]; · iexact HS1
    isplitl [HS2]; · iexact HS2
    iintro ⟨H0, ⟨%e1, H1⟩, ⟨%e2, H2⟩, ⟨%es1, HS1⟩, ⟨%es2, HS2⟩⟩
    isplitl [HS1 HS2 Hg]
    · isplitl [HS1 HS2]
      · isplitl [HS1]
        · unfold owns; iexists _; isplitr
          swap; · iexact HS1
          ipureintro; exact View.read_writes_of_cover _ _ _ _ _ (coverLast1 c _ _ _ _ _ _ _ _ _ _ _ _ _ _ _ _)
        · unfold owns; iexists _; isplitr
          swap; · iexact HS2
          ipureintro; exact View.read_writes_of_cover _ _ _ _ _ (coverLast2 c _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (coverLastO1 c _ _ _ _ _ _ _ _ _ _ _ _ _ _ _ _)
    · unfold owns; iexists _; isplitr
      swap; · iexact H2
      ipureintro; exact View.read_writes_of_cover _ _ _ _ _ (coverLastO2 c _ _ _ _ _ _ _ _ _ _ _ _ _ _ _ _)
  · rw [Dat.leavesExact_idle (dats m 0 c) 1 t (idle_1 t (fun h => h1 ((isLast_iff t).mp h))) (noFlush_1 t (fun h => h1 ((isLast_iff t).mp h)))]
    rw [Dat.leavesExact_idle (dats m 0 c) 2 t (idle_2 t (fun h => h1 ((isLast_iff t).mp h))) (noFlush_2 t (fun h => h1 ((isLast_iff t).mp h)))]
    by_cases h0 : t.val = 0
    · rw [accs_first m c t h0 h1]
      unfold sFirst1 sFirst2; (try dsimp only)
      rw [PhiS_castSucc m c t, PhiS_zero m c _ _ h0, inv_eq]
      iintro ⟨⟨⟨HS1, HS2⟩, Hg⟩, Ho, ⟨%d0, H0⟩, ⟨%d1, H1⟩, ⟨%d2, H2⟩⟩
      iapply ((runFirst c (grid0.coords t) (ms0 t) (hs0 t) (ms1 t) (hs1 t) (ms2 t) (hs2 t) sc1 (Memref.isWhole_whole _) sc2 (Memref.isWhole_whole _) ((isFirst_iff t).mpr h0) (fun h => h1 ((isLast_iff t).mp h)) (tile m c 0 t)).2.2 _ _ Set.univ _)
      isplitl [H0]; · iexact H0
      isplitl [H1]; · iexact H1
      isplitl [H2]; · iexact H2
      isplitl [HS1]; · iexact HS1
      isplitl [HS2]; · iexact HS2
      iintro ⟨H0, H1, H2, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (coverFirst1 c _ _ _ _ _ _ _ _ _ _ _ _ _ _)
          · unfold owns; iexists _; isplitr
            swap; · iexact HS2
            ipureintro; exact View.read_writes_of_cover _ _ _ _ _ (coverFirst2 c _ _ _ _ _ _ _ _ _ _ _ _ _ _)
        iexact Hg
      isplitl [Ho]; · iexact Ho
      isplitl [H0]; · iexact H0
      isplitl [H1]; · iexists _; iexact H1
      iexists _; iexact H2
    · rw [accs_mid m c t h0 h1]
      unfold sMid1 sMid2; (try dsimp only)
      rw [PhiS_castSucc m c t, PhiS_pos m c _ _ h0]
      iintro ⟨⟨⟨HS1, HS2⟩, Hg⟩, Ho, ⟨%d0, H0⟩, ⟨%d1, H1⟩, ⟨%d2, H2⟩⟩
      iapply ((runMid c (grid0.coords t) (ms0 t) (hs0 t) (ms1 t) (hs1 t) (ms2 t) (hs2 t) sc1 (Memref.isWhole_whole _) sc2 (Memref.isWhole_whole _) (fun h => h0 ((isFirst_iff t).mp h)) (fun h => h1 ((isLast_iff t).mp h)) (tile m c 0 t) _ _).2.2 _ _ Set.univ _)
      isplitl [H0]; · iexact H0
      isplitl [H1]; · iexact H1
      isplitl [H2]; · iexact H2
      isplitl [HS1]; · iexact HS1
      isplitl [HS2]; · iexact HS2
      iintro ⟨H0, H1, H2, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (coverMid1 c _ _ _ _ _ _ _ _ _ _ _ _ _ _ _ _)
          · unfold owns; iexists _; isplitr
            swap; · iexact HS2
            ipureintro; exact View.read_writes_of_cover _ _ _ _ _ (coverMid2 c _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem inv_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's own back: what the accumulators hold is forgotten. -/
theorem inv_out (c : Dev nD) : (dats m 0 c).Φ (Fin.last cfg0.N) ⊢ Pipeline.ΦA spec0 c := by
  have hN : cfg0.N = 40 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), inv_eq]
  iintro ⟨⟨HS1, HS2⟩, Hg⟩
  isplitl [HS1 HS2]
  · isplitl [HS1]
    · iexists _; iexact HS1
    · iexists _; iexact HS2
  iexact Hg

/-! ## The run and the frame -/

set_option backward.isDefEq.respectTransparency.types false in
/-- From any memory with zero counters every weakly fair execution of the program terminates, with the launch's arrays
    at what the proof data compute and every other buffer as the operations after the launch leave it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hin := inv_in m) (hout := inv_out m)

end Cert.Kernel.Region

end
-- ==== Proof.KernelKept.lean ====
/-
  The program leaves its three arguments as it found them.

  The table is one of the launch's arrays, an input: the launch only reads it. `mu` and `W` bypass the launch, and
  none of the operations after it writes them.
-/
import proofs.«116832_j78176994722585_1_alg».proof.Proof.KernelFrame

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- After the operations that follow the launch, a buffer none of them writes holds what the launch left in it; for
    `mu` and `W`, which are no array of the launch, that is what the program started from. -/
theorem tail_arg1 (c : Dev nD) :
    Pipeline.afterTail₀ cfgs (dats m) 0 (entry0 m) [hostOps1] c main_arg1 = m ((c : Thread nD τ).loc main_arg1) := by
  -- the contents after the 21 operations, read at `mu`'s buffer: none of them writes it, so each leaves it as found,
  -- and what the launch left there is what it found there (the buffer is no array of the launch)
  unfold Pipeline.afterTail₀
  show StableHlo.after hostOps1 _ (Proc.devRef .tc main_arg1) = _
  after_results
  refine (Pipeline.withArrays_of_ne spec0 c _ _ main_arg1 (by intro w; fin_cases w <;> decide)).trans ?_
  exact entry_arg1 m c
theorem tail_arg2 (c : Dev nD) :
    Pipeline.afterTail₀ cfgs (dats m) 0 (entry0 m) [hostOps1] c main_arg2 = m ((c : Thread nD τ).loc main_arg2) := by
  -- likewise at `W`'s buffer
  unfold Pipeline.afterTail₀
  show StableHlo.after hostOps1 _ (Proc.devRef .tc main_arg2) = _
  after_results
  refine (Pipeline.withArrays_of_ne spec0 c _ _ main_arg2 (by intro w; fin_cases w <;> decide)).trans ?_
  exact entry_arg2 m c

/-- Every weakly fair execution of the program terminates with the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  -- The run ends with the launch's arrays at what the proof data compute and every bypassing buffer at what the
  -- operations after the launch leave. The table is an input array: it is never written back, so it ends at its
  -- contents at the launch's entry, which are the program's initial ones. `mu` and `W` are unscoped and no array
  -- of the launch, and the operations after it leave them as they were.
  refine (θ_run defs _ _).mono (fun _ h c => ⟨?_, ?_, ?_⟩) (run_main m ρ)
  · exact ((h c).1 0).trans (((dats m 0 c).arrAt_in 0 rfl _).trans ((A_eq m c 0).trans (entry_arg0 m c)))
  · exact ((h c).2 main_arg1 (Pipeline.mem_restRefs_of main_arg1 (by decide) (by decide))).trans (tail_arg1 m c)
  · exact ((h c).2 main_arg2 (Pipeline.mem_restRefs_of main_arg2 (by decide) (by decide))).trans (tail_arg2 m c)

end Cert.Kernel.Region

end
-- ==== Proof.KernelIdealRegion.lean ====
/-
  The one kernel launch of this program and what surrounds it.

  The program launches the moments kernel first, over a grid of 40 points, and then runs 21 host operations on
  the kernel's two results. This file fixes the contents the launch starts from, shows that the program is the
  launch followed by those operations (which touch no scoped buffer, allocate nothing and never write one of the
  launch's three arrays), names the tile of 5000 rows that the first window holds at each point, decides at
  which points the kernel's two conditionals fire (the reset at the first point, the copy-out at the last) and
  at which points the two result windows are idle, and spells the launch's invariant over the kernel's two
  scratch accumulators.
-/
import proofs.«116832_j78176994722585_1_alg».proof.Proof.Gen.KernelIdeal.Launch
import proofs.«116832_j78176994722585_1_alg».proof.Proof.Gen.KernelIdeal.Skeleton
import proofs.«116832_j78176994722585_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's surroundings -/

/-- What core `c`'s buffers hold when the launch begins: no host operation comes before it, so the memory the
    program started from. -/
abbrev entry0 (c : Dev nD) : Valuation τ sig (Elt F) := StableHlo.after (List.flatten []) (fun b => m (c, b))
/-- The same read at one buffer. -/
abbrev entry (c : Dev nD) (b : Ref sig .tc) : Buf (Elt F) ((c : Thread nD τ).loc b) := entry0 m c (Proc.devRef .tc b)

theorem entry_arg0 (c : Dev nD) : entry m c main_arg0 = m ((c : Thread nD τ).loc main_arg0) := rfl
theorem entry_arg1 (c : Dev nD) : entry m c main_arg1 = m ((c : Thread nD τ).loc main_arg1) := rfl
theorem entry_arg2 (c : Dev nD) : entry m c main_arg2 = m ((c : Thread nD τ).loc main_arg2) := rfl

/-- The 21 operations after the launch allocate nothing. -/
theorem tail_fresh0 : (hostOps1 : List (HloOp τ sig (Elt F))).Forall fun op => op.fresh = ∅ := by
  simp only [List.Forall]; repeat' constructor

/-- The program is the launch continued by the 21 operations. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [] [hostOps1] (by simp only [List.Forall])
    (by simp only [List.Forall]) main_chain

/-- Those operations touch only the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh0) op hop

/-- Each of them writes its own result buffer only, and none of those is the table or one of the kernel's results. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## The table's tiles -/

/-- The block the first window holds at point `t`: rows `5000 t … 5000 t + 4999` of the table as the launch finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The first window's buffer holds its tile at every point (it is fetched at each), for any proof data whose
    first array is the table and whose body leaves the tile in place. -/
theorem holds_tile {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-! ## The two conditionals, decided over the grid -/

/-- The reset's condition, as the kernel computes it from the grid coordinate. -/
abbrev isFirst (i : grid0.Coords) : Prop := (Scalar.cmpi .ne (Scalar.extui (Scalar.cmpi .eq (BitVec.ofNat 32 (i 0).val) 0#32)) 0#32) = 1#1
/-- It fires at the first point only. -/
theorem isFirst_iff : ∀ t : Fin cfg0.N, isFirst (grid0.coords t) ↔ t.val = 0 :=
  (by decide +kernel : ∀ t : Fin grid0.N, isFirst (grid0.coords t) ↔ t.val = 0)

/-- The copy-out's condition. -/
abbrev isLast (i : grid0.Coords) : Prop := k0_cond2 i = 1#1
/-- It fires at the last point only. -/
theorem isLast_iff : ∀ t : Fin cfg0.N, isLast (grid0.coords t) ↔ t.val = 39 :=
  (by decide +kernel : ∀ t : Fin grid0.N, isLast (grid0.coords t) ↔ t.val = 39)

/-- The table's window is never idle. -/
theorem live_0 : ∀ t : Fin cfg0.N, cfg0.idle 0 (grid0.coords t) = false := by decide +kernel
/-- Before the last point the result windows are idle (the body stores nothing into them) and are not written back. -/
theorem idle_1 : ∀ t : Fin cfg0.N, ¬isLast (grid0.coords t) → cfg0.idle 1 (grid0.coords t) = true := by decide +kernel
theorem idle_2 : ∀ t : Fin cfg0.N, ¬isLast (grid0.coords t) → cfg0.idle 2 (grid0.coords t) = true := by decide +kernel
theorem noFlush_1 : ∀ t : Fin cfg0.N, ¬isLast (grid0.coords t) → (cfg0.win 1).flush t = false := by decide +kernel
theorem noFlush_2 : ∀ t : Fin cfg0.N, ¬isLast (grid0.coords t) → (cfg0.win 2).flush t = false := by decide +kernel
/-- At the last point they are live. -/
theorem live_1 : ∀ t : Fin cfg0.N, isLast (grid0.coords t) → cfg0.idle 1 (grid0.coords t) = false := by decide +kernel
theorem live_2 : ∀ t : Fin cfg0.N, isLast (grid0.coords t) → cfg0.idle 2 (grid0.coords t) = false := by decide +kernel

/-! ## The buffers the body runs on -/

/-- One buffer of each result window and the two scratch accumulators, as views: contents are stated through them. -/
abbrev VO1 : View sig .tc .vmem S1x576 .f32 := (Memref.whole cc0_stg1_0 : Memref sig .tc .vmem S1x576 .f32).view
abbrev VO2 : View sig .tc .vmem S1x576 .f32 := (Memref.whole cc0_stg2_0 : Memref sig .tc .vmem S1x576 .f32).view
abbrev sc1 : Memref sig .tc .vmem S1x576 .f32 := Memref.whole cc0_scratch0
abbrev sc2 : Memref sig .tc .vmem S1x576 .f32 := Memref.whole cc0_scratch1
abbrev VS1 : View sig .tc .vmem S1x576 .f32 := sc1.view
abbrev VS2 : View sig .tc .vmem S1x576 .f32 := sc2.view
/-- Each window's current buffer at point `t`, as the launch passes it to the body. -/
abbrev ms0 (t : Fin cfg0.N) : Memref sig .tc .vmem S5000x576 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x576 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x576 .f32 := win0_2.stage (cfg0.slots t 2)
abbrev hs2 (t : Fin cfg0.N) : (ms2 t).IsWhole := hstage0_2 ((cfg0.slots t 2).cast nbuf0_2)

/-- The launch's invariant: the two scratch accumulators owned at some contents, and the generator register. -/
theorem inv_eq (c : Dev nD) :
    (Pipeline.ΦA spec0 c : sProp 𝕄)
      = iprop(iprop((∃ d, owns (c : Thread nD τ) sc1 fullShare d) ∗ (∃ d, owns (c : Thread nD τ) sc2 fullShare d)) ∗ (∃ r, prngReg c r)) := by
  unfold Pipeline.ΦA; rw [scopedRest0_eq]; simp only [sc1, sc2, owns_whole]; try rfl

end Cert.KernelIdeal.Region

end
-- ==== Proof.KernelIdealBody.lean ====
/-
  The kernel body run once in each of the three situations the grid meets.

  At the first point the body zeroes both accumulators, then adds the tile's column sums (and the column sums of
  its squares) to them; at a middle point it only adds; at the last point it adds and then copies both
  accumulators into the two result buffers. In each situation the run below starts from the tile in the first
  window's buffer and ends with every buffer's contents given as the list of blocks the body stored into it.
-/
import proofs.«116832_j78176994722585_1_alg».proof.Proof.KernelIdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: both conditionals decided (the reset fires, the copy-out does not). The tile's buffer and the two
    idle result buffers come back as they were; each accumulator, whatever it held, ends with the blocks stored into it. -/
noncomputable def runFirst (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole) (hc0 : isFirst i) (hc1 : ¬isLast i)
    (x0 : Vec F S5000x576 .f32) :
    Σ' (LS1 : List (View.Piece (Elt F) S1x576 .f32)), { LS2 : List (View.Piece (Elt F) S1x576 .f32) //
      ∀ (xi1 xi2 : Vec F S1x576 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS1)
                ∗ (∃ f, arg5.view.loc (c : Thread nD τ) ↦[arg5.view.set]{fullShare} arg5.view.writes (Elt F) f LS2)) -∗ K ⟨⟩))
          ⊢ wp frame (wpE (defs₀ (F := F)) Variants.none c none) E (cc0__moments_kernel i arg1 harg1 arg2 harg2 arg3 harg3 arg4 harg4 arg5 harg5) K } := by
  refine ⟨?_, ?_, fun xi1 xi2 E K => ?run⟩
  case run =>
    simp only [cc0__moments_kernel_eq_skeleton]; unfold cc0__moments_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- A middle point: neither conditional fires. The accumulators start at what the point before left (`xs1`, `xs2`). -/
noncomputable def runMid (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole) (hc0 : ¬isFirst i) (hc1 : ¬isLast i)
    (x0 : Vec F S5000x576 .f32) (xs1 xs2 : Vec F S1x576 .f32) :
    Σ' (LS1 : List (View.Piece (Elt F) S1x576 .f32)), { LS2 : List (View.Piece (Elt F) S1x576 .f32) //
      ∀ (xi1 xi2 : Vec F S1x576 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs1 ∗ owns (c : Thread nD τ) arg5 fullShare xs2
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS1)
                ∗ (∃ f, arg5.view.loc (c : Thread nD τ) ↦[arg5.view.set]{fullShare} arg5.view.writes (Elt F) f LS2)) -∗ K ⟨⟩))
          ⊢ wp frame (wpE (defs₀ (F := F)) Variants.none c none) E (cc0__moments_kernel i arg1 harg1 arg2 harg2 arg3 harg3 arg4 harg4 arg5 harg5) K } := by
  refine ⟨?_, ?_, fun xi1 xi2 E K => ?run⟩
  case run =>
    simp only [cc0__moments_kernel_eq_skeleton]; unfold cc0__moments_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- The last point: the reset does not fire, the copy-out does. The result buffers, whatever they held, end with the
    blocks stored into them. -/
noncomputable def runLast (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole) (hc0 : ¬isFirst i) (hc1 : isLast i)
    (x0 : Vec F S5000x576 .f32) (xs1 xs2 : Vec F S1x576 .f32) :
    Σ' (L1 : List (View.Piece (Elt F) S1x576 .f32)) (L2 : List (View.Piece (Elt F) S1x576 .f32)) (LS1 : List (View.Piece (Elt F) S1x576 .f32)), { LS2 : List (View.Piece (Elt F) S1x576 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs1 ∗ owns (c : Thread nD τ) arg5 fullShare xs2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS1)
                ∗ (∃ f, arg5.view.loc (c : Thread nD τ) ↦[arg5.view.set]{fullShare} arg5.view.writes (Elt F) f LS2)) -∗ K ⟨⟩))
          ⊢ wp frame (wpE (defs₀ (F := F)) Variants.none c none) E (cc0__moments_kernel i arg1 harg1 arg2 harg2 arg3 harg3 arg4 harg4 arg5 harg5) K } := by
  refine ⟨?_, ?_, ?_, ?_, fun E K => ?run⟩
  case run =>
    simp only [cc0__moments_kernel_eq_skeleton]; unfold cc0__moments_kernel_skel
    unfold owns
    iintro ⟨⟨%f1, %hf1, H1⟩, ⟨%d2, %f2, -, H2⟩, ⟨%d3, %f3, -, H3⟩, ⟨%f4, %hf4, H4⟩, ⟨%f5, %hf5, H5⟩, Hk⟩
    obtain rfl := harg1.eq_unread hf1
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]; · iexists _; iexact H2
    isplitl [H3]; · iexists _; iexact H3
    isplitl [H4]; · iexists _; iexact H4
    iexists _; iexact H5

end Cert.KernelIdeal.Region

end
-- ==== Proof.KernelIdealFrame.lean ====
/-
  The launch runs to its end: every point's body, the accumulators carried from point to point, and the frame.

  After point `n` the two scratch accumulators hold what the body's stores at that point left over what point
  `n − 1` left (at the first point: over nothing, the reset covers them). The two result buffers are touched at the
  last point only, where the body copies the accumulators into them; until then they are idle and handed back as
  found. With these contents as proof data, the body meets its obligation at each point by the case the point is
  in, the launch theorem for a kernel followed by host operations applies, and the three argument arrays end as
  they began: the table is only ever read through its window, and `mu` and `W` bypass the launch and are written
  by none of the operations after it.
-/
import proofs.«116832_j78176994722585_1_alg».proof.Proof.KernelIdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

section Cases
variable (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole)

/-- First point: each accumulator's stored blocks tile it, -/
theorem coverFirst1 (hc0 : isFirst i) (hc1 : ¬isLast i) (x0 : Vec F S5000x576 .f32) (y : S1x576.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x576.size (by sl_kernel_rfl) y
theorem coverFirst2 (hc0 : isFirst i) (hc1 : ¬isLast i) (x0 : Vec F S5000x576 .f32) (y : S1x576.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x576.size (by sl_kernel_rfl) y
/-- and this is what they then hold. -/
def sFirst1 (hc0 : isFirst i) (hc1 : ¬isLast i) (x0 : Vec F S5000x576 .f32) : Vec F S1x576 .f32 :=
  VS1.read (Elt F) (VS1.writes (Elt F) VS1.junk (runFirst c i arg1 harg1 arg2 harg2 arg3 harg3 arg4 harg4 arg5 harg5 hc0 hc1 x0).1)
def sFirst2 (hc0 : isFirst i) (hc1 : ¬isLast i) (x0 : Vec F S5000x576 .f32) : Vec F S1x576 .f32 :=
  VS2.read (Elt F) (VS2.writes (Elt F) VS2.junk (runFirst c i arg1 harg1 arg2 harg2 arg3 harg3 arg4 harg4 arg5 harg5 hc0 hc1 x0).2.1)

/-- A middle point, from accumulators at `xs1`, `xs2`. -/
theorem coverMid1 (hc0 : ¬isFirst i) (hc1 : ¬isLast i) (x0 : Vec F S5000x576 .f32) (xs1 xs2 : Vec F S1x576 .f32) (y : S1x576.Idx) :
    ∃ pc ∈ (runMid c i arg1 harg1 arg2 harg2 arg3 harg3 arg4 harg4 arg5 harg5 hc0 hc1 x0 xs1 xs2).1, y ∈ pc.1.set :=
  View.cover_of_tiledL (runMid c i arg1 harg1 arg2 harg2 arg3 harg3 arg4 harg4 arg5 harg5 hc0 hc1 x0 xs1 xs2).1 S1x576.size (by sl_kernel_rfl) y
theorem coverMid2 (hc0 : ¬isFirst i) (hc1 : ¬isLast i) (x0 : Vec F S5000x576 .f32) (xs1 xs2 : Vec F S1x576 .f32) (y : S1x576.Idx) :
    ∃ pc ∈ (runMid c i arg1 harg1 arg2 harg2 arg3 harg3 arg4 harg4 arg5 harg5 hc0 hc1 x0 xs1 xs2).2.1, y ∈ pc.1.set :=
  View.cover_of_tiledL (runMid c i arg1 harg1 arg2 harg2 arg3 harg3 arg4 harg4 arg5 harg5 hc0 hc1 x0 xs1 xs2).2.1 S1x576.size (by sl_kernel_rfl) y
def sMid1 (hc0 : ¬isFirst i) (hc1 : ¬isLast i) (x0 : Vec F S5000x576 .f32) (xs1 xs2 : Vec F S1x576 .f32) : Vec F S1x576 .f32 :=
  VS1.read (Elt F) (VS1.writes (Elt F) VS1.junk (runMid c i arg1 harg1 arg2 harg2 arg3 harg3 arg4 harg4 arg5 harg5 hc0 hc1 x0 xs1 xs2).1)
def sMid2 (hc0 : ¬isFirst i) (hc1 : ¬isLast i) (x0 : Vec F S5000x576 .f32) (xs1 xs2 : Vec F S1x576 .f32) : Vec F S1x576 .f32 :=
  VS2.read (Elt F) (VS2.writes (Elt F) VS2.junk (runMid c i arg1 harg1 arg2 harg2 arg3 harg3 arg4 harg4 arg5 harg5 hc0 hc1 x0 xs1 xs2).2.1)

/-- The last point: the two result buffers and the two accumulators. -/
theorem coverLastO1 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).1, y ∈ pc.1.set :=
  View.cover_of_tiledL (runLast c i arg1 harg1 arg2 harg2 arg3 harg3 arg4 harg4 arg5 harg5 hc0 hc1 x0 xs1 xs2).1 S1x576.size (by sl_kernel_rfl) y
theorem coverLastO2 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).2.1, y ∈ pc.1.set :=
  View.cover_of_tiledL (runLast c i arg1 harg1 arg2 harg2 arg3 harg3 arg4 harg4 arg5 harg5 hc0 hc1 x0 xs1 xs2).2.1 S1x576.size (by sl_kernel_rfl) y
theorem coverLast1 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).2.2.1, y ∈ pc.1.set :=
  View.cover_of_tiledL (runLast c i arg1 harg1 arg2 harg2 arg3 harg3 arg4 harg4 arg5 harg5 hc0 hc1 x0 xs1 xs2).2.2.1 S1x576.size (by sl_kernel_rfl) y
theorem coverLast2 (hc0 : ¬isFirst i) (hc1 : isLast i) (x0 : Vec F S5000x576 .f32) (xs1 xs2 : Vec F S1x576 .f32) (y : S1x576.Idx) :
    ∃ pc ∈ (runLast c i arg1 harg1 arg2 harg2 arg3 harg3 arg4 harg4 arg5 harg5 hc0 hc1 x0 xs1 xs2).2.2.2.1, y ∈ pc.1.set :=
  View.cover_of_tiledL (runLast c i arg1 harg1 arg2 harg2 arg3 harg3 arg4 harg4 arg5 harg5 hc0 hc1 x0 xs1 xs2).2.2.2.1 S1x576.size (by sl_kernel_rfl) y
def oLast1 (hc0 : ¬isFirst i) (hc1 : isLast i) (x0 : Vec F S5000x576 .f32) (xs1 xs2 : Vec F S1x576 .f32) : Vec F S1x576 .f32 :=
  VO1.read (Elt F) (VO1.writes (Elt F) VO1.junk (runLast c i arg1 harg1 arg2 harg2 arg3 harg3 arg4 harg4 arg5 harg5 hc0 hc1 x0 xs1 xs2).1)
def oLast2 (hc0 : ¬isFirst i) (hc1 : isLast i) (x0 : Vec F S5000x576 .f32) (xs1 xs2 : Vec F S1x576 .f32) : Vec F S1x576 .f32 :=
  VO2.read (Elt F) (VO2.writes (Elt F) VO2.junk (runLast c i arg1 harg1 arg2 harg2 arg3 harg3 arg4 harg4 arg5 harg5 hc0 hc1 x0 xs1 xs2).2.1)
def sLast1 (hc0 : ¬isFirst i) (hc1 : isLast i) (x0 : Vec F S5000x576 .f32) (xs1 xs2 : Vec F S1x576 .f32) : Vec F S1x576 .f32 :=
  VS1.read (Elt F) (VS1.writes (Elt F) VS1.junk (runLast c i arg1 harg1 arg2 harg2 arg3 harg3 arg4 harg4 arg5 harg5 hc0 hc1 x0 xs1 xs2).2.2.1)
def sLast2 (hc0 : ¬isFirst i) (hc1 : isLast i) (x0 : Vec F S5000x576 .f32) (xs1 xs2 : Vec F S1x576 .f32) : Vec F S1x576 .f32 :=
  VS2.read (Elt F) (VS2.writes (Elt F) VS2.junk (runLast c i arg1 harg1 arg2 harg2 arg3 harg3 arg4 harg4 arg5 harg5 hc0 hc1 x0 xs1 xs2).2.2.2.1)

end Cases

/-! ## The accumulators, point by point -/

/-- What the two accumulators hold after point `n`: the point's case run on the point's buffers and tile, from what the
    point before left. -/
def accs (c : Dev nD) : (n : ℕ) → n < cfg0.N → Vec F S1x576 .f32 × Vec F S1x576 .f32
  | 0, hn => (sFirst1 c (grid0.coords ⟨0, hn⟩) (ms0 ⟨0, hn⟩) (hs0 ⟨0, hn⟩) (ms1 ⟨0, hn⟩) (hs1 ⟨0, hn⟩) (ms2 ⟨0, hn⟩) (hs2 ⟨0, hn⟩) sc1 (Memref.isWhole_whole _) sc2 (Memref.isWhole_whole _) ((isFirst_iff ⟨0, hn⟩).mpr rfl) (fun h => absurd ((isLast_iff ⟨0, hn⟩).mp h) (show ¬(0 : ℕ) = 39 by decide)) (tile m c 0 ⟨0, hn⟩),
              sFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) sc1 (Memref.isWhole_whole _) sc2 (Memref.isWhole_whole _) ((isFirst_iff ⟨0, hn⟩).mpr rfl) (fun h => absurd ((isLast_iff ⟨0, hn⟩).mp h) (show ¬(0 : ℕ) = 39 by decide)) (tile m c 0 ⟨0, hn⟩))
  | n + 1, hn =>
    if h : n + 1 = 39 then
      (sLast1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) ((isLast_iff ⟨n + 1, hn⟩).mpr h) (tile m c 0 ⟨n + 1, hn⟩) (accs c n (Nat.lt_of_succ_lt hn)).1 (accs c n (Nat.lt_of_succ_lt hn)).2,
       sLast2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) ((isLast_iff ⟨n + 1, hn⟩).mpr h) (tile m c 0 ⟨n + 1, hn⟩) (accs c n (Nat.lt_of_succ_lt hn)).1 (accs c n (Nat.lt_of_succ_lt hn)).2)
    else
      (sMid1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) (fun h' => h ((isLast_iff ⟨n + 1, hn⟩).mp h')) (tile m c 0 ⟨n + 1, hn⟩) (accs c n (Nat.lt_of_succ_lt hn)).1 (accs c n (Nat.lt_of_succ_lt hn)).2,
       sMid2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) sc1 (Memref.isWhole_whole _) sc2 (Memref.isWhole_whole _) (fun h' => Nat.succ_ne_zero n ((isFirst_iff ⟨n + 1, hn⟩).mp h')) (fun h' => h ((isLast_iff ⟨n + 1, hn⟩).mp h')) (tile m c 0 ⟨n + 1, hn⟩) (accs c n (Nat.lt_of_succ_lt hn)).1 (accs c n (Nat.lt_of_succ_lt hn)).2)

/-- What the point before `t` left (read at `t − 1`; only consulted after the first point). -/
abbrev prev (c : Dev nD) (t : Fin cfg0.N) : Vec F S1x576 .f32 × Vec F S1x576 .f32 :=
  accs m c (t.val - 1) (Nat.lt_of_le_of_lt (Nat.sub_le _ _) t.isLt)

theorem accs_first (c : Dev nD) (t : Fin cfg0.N) (h0 : t.val = 0) (h1 : ¬t.val = 39) :
    accs m c t.val t.isLt = (sFirst1 c (grid0.coords t) (ms0 t) (hs0 t) (ms1 t) (hs1 t) (ms2 t) (hs2 t) sc1 (Memref.isWhole_whole _) sc2 (Memref.isWhole_whole _) ((isFirst_iff t).mpr h0) (fun h => h1 ((isLast_iff t).mp h)) (tile m c 0 t),
      sFirst2 c (grid0.coords t) (ms0 t) (hs0 t) (ms1 t) (hs1 t) (ms2 t) (hs2 t) sc1 (Memref.isWhole_whole _) sc2 (Memref.isWhole_whole _) ((isFirst_iff t).mpr h0) (fun h => h1 ((isLast_iff t).mp h)) (tile m c 0 t)) := by
  obtain ⟨n, hn⟩ := t
  cases n with
  | zero => exact rfl
  | succ n => exact absurd h0 (Nat.succ_ne_zero n)

theorem accs_mid (c : Dev nD) (t : Fin cfg0.N) (h0 : ¬t.val = 0) (h1 : ¬t.val = 39) :
    accs m c t.val t.isLt = (sMid1 c (grid0.coords t) (ms0 t) (hs0 t) (ms1 t) (hs1 t) (ms2 t) (hs2 t) sc1 (Memref.isWhole_whole _) sc2 (Memref.isWhole_whole _) (fun h => h0 ((isFirst_iff t).mp h)) (fun h => h1 ((isLast_iff t).mp h)) (tile m c 0 t) (prev m c t).1 (prev m c t).2,
      sMid2 c (grid0.coords t) (ms0 t) (hs0 t) (ms1 t) (hs1 t) (ms2 t) (hs2 t) sc1 (Memref.isWhole_whole _) sc2 (Memref.isWhole_whole _) (fun h => h0 ((isFirst_iff t).mp h)) (fun h => h1 ((isLast_iff t).mp h)) (tile m c 0 t) (prev m c t).1 (prev m c t).2) := by
  obtain ⟨n, hn⟩ := t
  cases n with
  | zero => exact absurd rfl h0
  | succ n => exact (dif_neg h1).trans rfl

theorem accs_last (c : Dev nD) (t : Fin cfg0.N) (h0 : ¬t.val = 0) (h1 : t.val = 39) :
    accs m c t.val t.isLt = (sLast1 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2,
      sLast2 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2) := by
  obtain ⟨n, hn⟩ := t
  cases n with
  | zero => exact absurd rfl h0
  | succ n => exact (dif_pos h1).trans rfl

/-- What the two result buffers hold after the body at point `t`: at the last point the copies of the accumulators;
    before it nothing is stated (the buffers are idle there and this is never consulted). -/
def outs (c : Dev nD) (t : Fin cfg0.N) : Vec F S1x576 .f32 × Vec F S1x576 .f32 :=
  if h : t.val = 39 then
    (oLast1 c (grid0.coords t) (ms0 t) (hs0 t) (ms1 t) (hs1 t) (ms2 t) (hs2 t) sc1 (Memref.isWhole_whole _) sc2 (Memref.isWhole_whole _) (fun h' => absurd ((isFirst_iff t).mp h') (by omega)) ((isLast_iff t).mpr h) (tile m c 0 t) (prev m c t).1 (prev m c t).2,
     oLast2 c (grid0.coords t) (ms0 t) (hs0 t) (ms1 t) (hs1 t) (ms2 t) (hs2 t) sc1 (Memref.isWhole_whole _) sc2 (Memref.isWhole_whole _) (fun h' => absurd ((isFirst_iff t).mp h') (by omega)) ((isLast_iff t).mpr h) (tile m c 0 t) (prev m c t).1 (prev m c t).2)
  else (VO1.read (Elt F) VO1.junk, VO2.read (Elt F) VO2.junk)

theorem outs_last (c : Dev nD) (t : Fin cfg0.N) (h0 : ¬t.val = 0) (h1 : t.val = 39) :
    outs m c t = (oLast1 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2,
      oLast2 c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) (prev m c t).1 (prev m c t).2) := by
  unfold outs; exact dif_pos h1

/-! ## The invariant and the proof data -/

/-- Before position `n`: at the start the launch's own invariant (the accumulators at anything); afterwards the
    accumulators at what point `n − 1` left, and the generator register at some state. -/
def PhiS (c : Dev nD) : (n : ℕ) → n ≤ cfg0.N → sProp 𝕄
  | 0, _ => Pipeline.ΦA spec0 c
  | n + 1, hn => iprop(iprop(owns (c : Thread nD τ) sc1 fullShare ((accs m c n hn).1) ∗ owns (c : Thread nD τ) sc2 fullShare ((accs m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc1 fullShare ((accs m c n hn).1) ∗ owns (c : Thread nD τ) sc2 fullShare ((accs m c n hn).2)) ∗ (∃ r, prngReg c r)) := rfl

theorem PhiS_pos (c : Dev nD) (n : ℕ) (h : n ≤ cfg0.N) (hz : n ≠ 0) :
    PhiS m c n h = iprop(iprop(owns (c : Thread nD τ) sc1 fullShare ((accs m c (n - 1) (by omega)).1) ∗ owns (c : Thread nD τ) sc2 fullShare ((accs m c (n - 1) (by omega)).2)) ∗ (∃ r, prngReg c r)) := by
  cases n with
  | zero => exact absurd rfl hz
  | succ n => rfl

/-- The proof data of the launch on core `c`. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => (outs m c t).1
    | ⟨2, _⟩ => (outs m c t).2
  Φ t := PhiS m c t.val (Nat.le_of_lt_succ t.isLt)
  q _ := fullShare
  owed _ := 0

theorem A_eq (c : Dev nD) (w : Fin cfg0.W) : (dats m 0 c).A w = entry m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = tile m c 0 t := by dsimp only [dats]
theorem after_1 (c : Dev nD) (t : Fin cfg0.N) : (dats m 0 c).after 1 t = (outs m c t).1 := by dsimp only [dats]
theorem after_2 (c : Dev nD) (t : Fin cfg0.N) : (dats m 0 c).after 2 t = (outs m c t).2 := by dsimp only [dats]

theorem before_0 (c : Dev nD) (t : Fin cfg0.N) (d) : (dats m 0 c).before 0 t d = tile m c 0 t :=
  holds_tile m (dats m 0 c) (A_eq m c 0) (after_0 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0 t) fullShare ((dats m 0 c).after 0 t) from by
    unfold Dat.leavesExact; rw [live_0 t], after_0]
  by_cases h1 : t.val = 39
  · have h0 : ¬t.val = 0 := by omega
    rw [show (dats m 0 c).leavesExact 1 t = owns (c : Thread nD τ) (ms1 t) fullShare ((dats m 0 c).after 1 t) from by
      unfold Dat.leavesExact; rw [live_1 t ((isLast_iff t).mpr h1)], after_1]
    rw [show (dats m 0 c).leavesExact 2 t = owns (c : Thread nD τ) (ms2 t) fullShare ((dats m 0 c).after 2 t) from by
      unfold Dat.leavesExact; rw [live_2 t ((isLast_iff t).mpr h1)], after_2]
    rw [accs_last m c t h0 h1, outs_last m c t h0 h1]
    unfold oLast1 oLast2 sLast1 sLast2; (try dsimp only)
    rw [PhiS_castSucc m c t, PhiS_pos m c _ _ h0]
    iintro ⟨⟨⟨HS1, HS2⟩, Hg⟩, Ho, ⟨%d0, H0⟩, ⟨%d1, H1⟩, ⟨%d2, H2⟩⟩
    iapply ((runLast c (grid0.coords t) (ms0 t) (hs0 t) (ms1 t) (hs1 t) (ms2 t) (hs2 t) sc1 (Memref.isWhole_whole _) sc2 (Memref.isWhole_whole _) (fun h => h0 ((isFirst_iff t).mp h)) ((isLast_iff t).mpr h1) (tile m c 0 t) _ _).2.2.2.2 Set.univ _)
    isplitl [H0]; · iexact H0
    isplitl [H1]; · iexists _; iexact H1
    isplitl [H2]; · iexists _; iexact H2
    isplitl [HS1]; · iexact HS1
    isplitl [HS2]; · iexact HS2
    iintro ⟨H0, ⟨%e1, H1⟩, ⟨%e2, H2⟩, ⟨%es1, HS1⟩, ⟨%es2, HS2⟩⟩
    isplitl [HS1 HS2 Hg]
    · isplitl [HS1 HS2]
      · isplitl [HS1]
        · unfold owns; iexists _; isplitr
          swap; · iexact HS1
          ipureintro; exact View.read_writes_of_cover _ _ _ _ _ (coverLast1 c _ _ _ _ _ _ _ _ _ _ _ _ _ _ _ _)
        · unfold owns; iexists _; isplitr
          swap; · iexact HS2
          ipureintro; exact View.read_writes_of_cover _ _ _ _ _ (coverLast2 c _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (coverLastO1 c _ _ _ _ _ _ _ _ _ _ _ _ _ _ _ _)
    · unfold owns; iexists _; isplitr
      swap; · iexact H2
      ipureintro; exact View.read_writes_of_cover _ _ _ _ _ (coverLastO2 c _ _ _ _ _ _ _ _ _ _ _ _ _ _ _ _)
  · rw [Dat.leavesExact_idle (dats m 0 c) 1 t (idle_1 t (fun h => h1 ((isLast_iff t).mp h))) (noFlush_1 t (fun h => h1 ((isLast_iff t).mp h)))]
    rw [Dat.leavesExact_idle (dats m 0 c) 2 t (idle_2 t (fun h => h1 ((isLast_iff t).mp h))) (noFlush_2 t (fun h => h1 ((isLast_iff t).mp h)))]
    by_cases h0 : t.val = 0
    · rw [accs_first m c t h0 h1]
      unfold sFirst1 sFirst2; (try dsimp only)
      rw [PhiS_castSucc m c t, PhiS_zero m c _ _ h0, inv_eq]
      iintro ⟨⟨⟨HS1, HS2⟩, Hg⟩, Ho, ⟨%d0, H0⟩, ⟨%d1, H1⟩, ⟨%d2, H2⟩⟩
      iapply ((runFirst c (grid0.coords t) (ms0 t) (hs0 t) (ms1 t) (hs1 t) (ms2 t) (hs2 t) sc1 (Memref.isWhole_whole _) sc2 (Memref.isWhole_whole _) ((isFirst_iff t).mpr h0) (fun h => h1 ((isLast_iff t).mp h)) (tile m c 0 t)).2.2 _ _ Set.univ _)
      isplitl [H0]; · iexact H0
      isplitl [H1]; · iexact H1
      isplitl [H2]; · iexact H2
      isplitl [HS1]; · iexact HS1
      isplitl [HS2]; · iexact HS2
      iintro ⟨H0, H1, H2, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (coverFirst1 c _ _ _ _ _ _ _ _ _ _ _ _ _ _)
          · unfold owns; iexists _; isplitr
            swap; · iexact HS2
            ipureintro; exact View.read_writes_of_cover _ _ _ _ _ (coverFirst2 c _ _ _ _ _ _ _ _ _ _ _ _ _ _)
        iexact Hg
      isplitl [Ho]; · iexact Ho
      isplitl [H0]; · iexact H0
      isplitl [H1]; · iexists _; iexact H1
      iexists _; iexact H2
    · rw [accs_mid m c t h0 h1]
      unfold sMid1 sMid2; (try dsimp only)
      rw [PhiS_castSucc m c t, PhiS_pos m c _ _ h0]
      iintro ⟨⟨⟨HS1, HS2⟩, Hg⟩, Ho, ⟨%d0, H0⟩, ⟨%d1, H1⟩, ⟨%d2, H2⟩⟩
      iapply ((runMid c (grid0.coords t) (ms0 t) (hs0 t) (ms1 t) (hs1 t) (ms2 t) (hs2 t) sc1 (Memref.isWhole_whole _) sc2 (Memref.isWhole_whole _) (fun h => h0 ((isFirst_iff t).mp h)) (fun h => h1 ((isLast_iff t).mp h)) (tile m c 0 t) _ _).2.2 _ _ Set.univ _)
      isplitl [H0]; · iexact H0
      isplitl [H1]; · iexact H1
      isplitl [H2]; · iexact H2
      isplitl [HS1]; · iexact HS1
      isplitl [HS2]; · iexact HS2
      iintro ⟨H0, H1, H2, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (coverMid1 c _ _ _ _ _ _ _ _ _ _ _ _ _ _ _ _)
          · unfold owns; iexists _; isplitr
            swap; · iexact HS2
            ipureintro; exact View.read_writes_of_cover _ _ _ _ _ (coverMid2 c _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem inv_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's own back: what the accumulators hold is forgotten. -/
theorem inv_out (c : Dev nD) : (dats m 0 c).Φ (Fin.last cfg0.N) ⊢ Pipeline.ΦA spec0 c := by
  have hN : cfg0.N = 40 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), inv_eq]
  iintro ⟨⟨HS1, HS2⟩, Hg⟩
  isplitl [HS1 HS2]
  · isplitl [HS1]
    · iexists _; iexact HS1
    · iexists _; iexact HS2
  iexact Hg

/-! ## The run and the frame -/

set_option backward.isDefEq.respectTransparency.types false in
/-- From any memory with zero counters every weakly fair execution of the program terminates, with the launch's arrays
    at what the proof data compute and every other buffer as the operations after the launch leave it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hin := inv_in m) (hout := inv_out m)

end Cert.KernelIdeal.Region

end
-- ==== Proof.KernelIdealKept.lean ====
/-
  The program leaves its three arguments as it found them.

  The table is one of the launch's arrays, an input: the launch only reads it. `mu` and `W` bypass the launch, and
  none of the operations after it writes them.
-/
import proofs.«116832_j78176994722585_1_alg».proof.Proof.KernelIdealFrame

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- After the operations that follow the launch, a buffer none of them writes holds what the launch left in it; for
    `mu` and `W`, which are no array of the launch, that is what the program started from. -/
theorem tail_arg1 (c : Dev nD) :
    Pipeline.afterTail₀ cfgs (dats m) 0 (entry0 m) [hostOps1] c main_arg1 = m ((c : Thread nD τ).loc main_arg1) := by
  -- the contents after the 21 operations, read at `mu`'s buffer: none of them writes it, so each leaves it as found,
  -- and what the launch left there is what it found there (the buffer is no array of the launch)
  unfold Pipeline.afterTail₀
  show StableHlo.after hostOps1 _ (Proc.devRef .tc main_arg1) = _
  after_results
  refine (Pipeline.withArrays_of_ne spec0 c _ _ main_arg1 (by intro w; fin_cases w <;> decide)).trans ?_
  exact entry_arg1 m c
theorem tail_arg2 (c : Dev nD) :
    Pipeline.afterTail₀ cfgs (dats m) 0 (entry0 m) [hostOps1] c main_arg2 = m ((c : Thread nD τ).loc main_arg2) := by
  -- likewise at `W`'s buffer
  unfold Pipeline.afterTail₀
  show StableHlo.after hostOps1 _ (Proc.devRef .tc main_arg2) = _
  after_results
  refine (Pipeline.withArrays_of_ne spec0 c _ _ main_arg2 (by intro w; fin_cases w <;> decide)).trans ?_
  exact entry_arg2 m c

/-- Every weakly fair execution of the program terminates with the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  -- The run ends with the launch's arrays at what the proof data compute and every bypassing buffer at what the
  -- operations after the launch leave. The table is an input array: it is never written back, so it ends at its
  -- contents at the launch's entry, which are the program's initial ones. `mu` and `W` are unscoped and no array
  -- of the launch, and the operations after it leave them as they were.
  refine (θ_run defs _ _).mono (fun _ h c => ⟨?_, ?_, ?_⟩) (run_main m ρ)
  · exact ((h c).1 0).trans (((dats m 0 c).arrAt_in 0 rfl _).trans ((A_eq m c 0).trans (entry_arg0 m c)))
  · exact ((h c).2 main_arg1 (Pipeline.mem_restRefs_of main_arg1 (by decide) (by decide))).trans (tail_arg1 m c)
  · exact ((h c).2 main_arg2 (Pipeline.mem_restRefs_of main_arg2 (by decide) (by decide))).trans (tail_arg2 m c)

end Cert.KernelIdeal.Region

end
-- ==== Proof.Cols.lean ====
/-
  The column statistics both programs compute, as functions on the extended reals.

  `X` is a table of 200000 rows and 576 columns. For a column `i` the two programs agree on three numbers:
  the mean of the column, `(∑ₖ X k i) / 200000`; the mean of the column's deviations from that mean, which is
  zero; and the mean of the squared deviations, which is the mean of the squares less the square of the mean.
  This file only names the column's entries and the first and last of these numbers; the laws that relate
  them to sums of deviations are proved where they are used.
-/
import Idealize.ShloMosaic.PureOps.Ideal
import Idealize.ShloMosaic.Lib.ValueIdx

noncomputable section

namespace Cert.Moments

open Idealize.ShloMosaic

/-- The table's shape, the shape of one number per column, and that shape written as a one-row matrix. -/
abbrev SX : Shape := ⟨2, ![200000, 576]⟩
abbrev SV : Shape := ⟨1, ![576]⟩
abbrev SR : Shape := ⟨2, ![1, 576]⟩

/-- Entry `k` of column `i`: row `k`, and on the second axis the column's own coordinate. -/
abbrev colIdx (i : SV.Idx) (k : Fin 200000) : SX.Idx := fun a => match a with
  | ⟨0, _⟩ => ⟨k.val, k.isLt⟩
  | ⟨1, _⟩ => ⟨(i 0).val, (i 0).isLt⟩

/-- The number of rows, as the extended real the programs divide by. -/
abbrev rows : EReal := ((200000 : ℝ) : EReal)

/-- The column's sum and the sum of its squares. -/
def colSum (X : SX.Idx → EReal) (i : SV.Idx) : EReal := ∑ k : Fin 200000, X (colIdx i k)
def colSumSq (X : SX.Idx → EReal) (i : SV.Idx) : EReal := ∑ k : Fin 200000, X (colIdx i k) * X (colIdx i k)

/-- The column's mean. -/
def colMean (X : SX.Idx → EReal) (i : SV.Idx) : EReal := Ideal.div (colSum X i) rows

/-- The column's variance by raw moments: the mean of the squares less the square of the mean. -/
def colVar (X : SX.Idx → EReal) (i : SV.Idx) : EReal :=
  Ideal.div (colSumSq X i) rows - colMean X i * colMean X i

end Cert.Moments

end
-- ==== Proof.LibFiniteSums.lean ====
import Mathlib.Data.EReal.Basic
import Mathlib.Data.EReal.Operations
import Mathlib.Data.EReal.Inv
import Mathlib.Analysis.Real.Sqrt
import Mathlib.Algebra.BigOperators.Group.Finset.Basic
import Mathlib.Algebra.BigOperators.Group.Finset.Piecewise
import Mathlib.Algebra.Order.BigOperators.Group.Finset
import Mathlib.Data.Fintype.BigOperators
import Mathlib.Logic.Equiv.Fin.Basic
import Idealize.ShloMosaic.PureOps.Ideal
import Idealize.ShloMosaic.PureOps.Ideal.Laws
import Idealize.ShloMosaic.Lib.ValueIdx

/-!
# Finite sums of finite extended reals

The extended reals are not a ring: a product does not distribute over a sum once an infinity is among the
terms. Where every term is a real number the usual laws hold. This file names that side condition
(`IsReal`), shows it closed under the field operations met in a normalised graph convolution (sum,
difference, product, maximum, finite sums, division by a positive real, inverse square root of a positive
real), and proves the regrouping laws of finite sums under it. It also splits a sum over a range of rows
into the sums over its tiles, turns a mask-weighted sum into a sum over the masked set, evaluates the few
single-precision words such a program spells, and reads a small index word as its signed value.
-/

noncomputable section

namespace Cert.LibFinite

open Idealize.ShloMosaic

/-! ### Real-valued extended reals -/

/-- An extended real is real when it is neither of the two infinities. -/
def IsReal (a : EReal) : Prop := a ≠ ⊤ ∧ a ≠ ⊥

/-- The cast of a real number is real. -/
theorem isReal_coe (r : ℝ) : IsReal (r : EReal) := ⟨EReal.coe_ne_top r, EReal.coe_ne_bot r⟩

/-- Zero is real. -/
theorem isReal_zero : IsReal (0 : EReal) := isReal_coe 0

/-- One is real. -/
theorem isReal_one : IsReal (1 : EReal) := isReal_coe 1

/-- A real extended real is the cast of some real number. -/
theorem IsReal.exists_coe {a : EReal} (ha : IsReal a) : ∃ r : ℝ, a = (r : EReal) :=
  ⟨a.toReal, (EReal.coe_toReal ha.1 ha.2).symm⟩

/-- The sum of two reals is real. -/
theorem IsReal.add {a b : EReal} (ha : IsReal a) (hb : IsReal b) : IsReal (a + b) := by
  obtain ⟨x, rfl⟩ := ha.exists_coe
  obtain ⟨y, rfl⟩ := hb.exists_coe
  rw [← EReal.coe_add]; exact isReal_coe _

/-- The difference of two reals is real. -/
theorem IsReal.sub {a b : EReal} (ha : IsReal a) (hb : IsReal b) : IsReal (a - b) := by
  obtain ⟨x, rfl⟩ := ha.exists_coe
  obtain ⟨y, rfl⟩ := hb.exists_coe
  rw [← EReal.coe_sub]; exact isReal_coe _

/-- The product of two reals is real. -/
theorem IsReal.mul {a b : EReal} (ha : IsReal a) (hb : IsReal b) : IsReal (a * b) := by
  obtain ⟨x, rfl⟩ := ha.exists_coe
  obtain ⟨y, rfl⟩ := hb.exists_coe
  rw [← EReal.coe_mul]; exact isReal_coe _

/-- The negative of a real is real. -/
theorem IsReal.neg {a : EReal} (ha : IsReal a) : IsReal (-a) := by
  obtain ⟨x, rfl⟩ := ha.exists_coe
  rw [← EReal.coe_neg]; exact isReal_coe _

/-- The larger of two reals is one of them, hence real. -/
theorem IsReal.max {a b : EReal} (ha : IsReal a) (hb : IsReal b) : IsReal (max a b) := by
  rcases max_choice a b with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The cast of a finite sum of real numbers is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### The ring laws among reals -/

/-- Adding zero on the left changes nothing. -/
theorem zero_add_ereal (a : EReal) : 0 + a = a := zero_add a

/-- A product with zero on the right is zero, at the infinities too. -/
theorem mul_zero_ereal (a : EReal) : a * 0 = 0 := mul_zero a

/-- Adding zero in front of a finite sum changes nothing. -/
theorem zero_add_sum {ι : Type*} (s : Finset ι) (f : ι → EReal) : 0 + ∑ i ∈ s, f i = ∑ i ∈ s, f i :=
  zero_add _

/-- A real minus itself is zero (false at the infinities, where the difference is an infinity). -/
theorem sub_self_of_isReal (a : EReal) (ha : IsReal a) : a - a = 0 := by
  obtain ⟨x, rfl⟩ := ha.exists_coe
  rw [← EReal.coe_sub, sub_self, EReal.coe_zero]

/-- Among reals a product distributes over a sum of two. -/
theorem mul_add_of_isReal (a : EReal) (ha : IsReal a) (b c : EReal) (hb : IsReal b) (hc : IsReal c) :
    a * (b + c) = a * b + a * c := by
  obtain ⟨x, rfl⟩ := ha.exists_coe
  obtain ⟨y, rfl⟩ := hb.exists_coe
  obtain ⟨z, rfl⟩ := hc.exists_coe
  rw [← EReal.coe_add, ← EReal.coe_mul, ← EReal.coe_mul, ← EReal.coe_mul, ← EReal.coe_add, mul_add]

/-- Among reals a product distributes over a finite sum. -/
theorem mul_sum_of_isReal (a : EReal) (ha : IsReal a) {ι : Type*} (s : Finset ι) (f : ι → EReal)
    (hf : ∀ i ∈ s, IsReal (f i)) : a * ∑ i ∈ s, f i = ∑ i ∈ s, a * f i := by
  classical
  induction s using Finset.induction_on with
  | empty => simp
  | insert b s hb ih =>
    have hs : ∀ i ∈ s, IsReal (f i) := fun i hi => hf i (Finset.mem_insert_of_mem hi)
    rw [Finset.sum_insert hb, Finset.sum_insert hb, ← ih hs]
    exact mul_add_of_isReal a ha _ _ (hf b (Finset.mem_insert_self b s)) (isReal_sum s f hs)

/-- A row's inverse-root degree `dn`, applied to the sum of the row's incoming messages `A e * dv e`, may be
    taken inside the sum and attached to each message's own inverse-root degree `dv e`. -/
theorem agg_regroup (dn : EReal) (hdn : IsReal dn) {ι : Type*} (s : Finset ι) (A dv : ι → EReal)
    (hA : ∀ e ∈ s, IsReal (A e)) (hd : ∀ e ∈ s, IsReal (dv e)) :
    dn * (0 + ∑ e ∈ s, A e * dv e) = 0 + ∑ e ∈ s, A e * (dv e * dn) := by
  rw [zero_add, zero_add, mul_sum_of_isReal dn hdn s _ fun e he => (hA e he).mul (hd e he)]
  refine Finset.sum_congr rfl fun e _ => ?_
  rw [mul_left_comm, mul_comm dn]

/-! ### Inverse square root, quotient by a positive real, squares, counts -/

/-- The inverse square root of a positive real is a positive real. -/
theorem isReal_rsqrt (a : EReal) (ha : IsReal a) (hpos : 0 < a) :
    IsReal (Ideal.rsqrt a) ∧ 0 < Ideal.rsqrt a := by
  obtain ⟨x, rfl⟩ := ha.exists_coe
  have hx : 0 < x := EReal.coe_pos.mp hpos
  rw [Ideal.rsqrt_coe, if_neg (not_lt.mpr hx.le), if_neg hx.ne']
  exact ⟨isReal_coe _, EReal.coe_pos.mpr (inv_pos.mpr (Real.sqrt_pos.mpr hx))⟩

/-- A real divided by a positive real is real, and nonnegative when the numerator is. Both the host's
    quotient and the kernel's are this quotient. -/
theorem isReal_div_pos (a : EReal) (ha : IsReal a) (r : ℝ) (hr : 0 < r) :
    IsReal (Ideal.div a (r : EReal)) ∧ (0 ≤ a → 0 ≤ Ideal.div a (r : EReal)) := by
  obtain ⟨x, rfl⟩ := ha.exists_coe
  rw [Ideal.div_coe hr.ne', ← EReal.coe_mul]
  refine ⟨isReal_coe _, fun h => ?_⟩
  have hx : 0 ≤ x := EReal.coe_nonneg.mp h
  exact EReal.coe_nonneg.mpr (mul_nonneg hx (by positivity))

/-- A finite sum of squares of reals is nonnegative. -/
theorem sum_sq_nonneg {ι : Type*} (s : Finset ι) (f : ι → EReal) (hf : ∀ i ∈ s, IsReal (f i)) :
    0 ≤ ∑ i ∈ s, f i * f i := by
  refine Finset.sum_nonneg fun i hi => ?_
  obtain ⟨x, hx⟩ := (hf i hi).exists_coe
  rw [hx, ← EReal.coe_mul]
  exact EReal.coe_nonneg.mpr (mul_self_nonneg x)

/-- Counting a nonempty finite set by adding a one per member gives a real number, at least one. -/
theorem count_pos {ι : Type*} (s : Finset ι) (hs : s.Nonempty) :
    IsReal (0 + ∑ _e ∈ s, (1 : EReal)) ∧ 1 ≤ 0 + ∑ _e ∈ s, (1 : EReal) := by
  have h1 : (∑ _e ∈ s, (1 : EReal)) = ((s.card : ℝ) : EReal) := by
    rw [Finset.sum_const, nsmul_one, ← EReal.coe_coe_eq_natCast]
  have hc : (1 : ℝ) ≤ (s.card : ℝ) := by exact_mod_cast Finset.card_pos.mpr hs
  rw [zero_add, h1]
  exact ⟨isReal_coe _, by rw [← EReal.coe_one]; exact EReal.coe_le_coe_iff.mpr hc⟩

/-! ### A sum over rows, tile by tile -/

/-- Three mixed-radix digits `s < a`, `j < b`, `r < c` name a number below `a * b * c`. -/
theorem digits_lt {a b c : ℕ} (s : Fin a) (j : Fin b) (r : Fin c) :
    (s.val * b + j.val) * c + r.val < a * b * c := by
  have h1 : s.val * b + j.val + 1 ≤ a * b :=
    calc s.val * b + j.val + 1 ≤ s.val * b + b := Nat.add_le_add_left j.isLt _
      _ = (s.val + 1) * b := (Nat.succ_mul _ _).symm
      _ ≤ a * b := Nat.mul_le_mul_right b s.isLt
  calc (s.val * b + j.val) * c + r.val < (s.val * b + j.val) * c + c := Nat.add_lt_add_left r.isLt _
    _ = (s.val * b + j.val + 1) * c := (Nat.succ_mul _ _).symm
    _ ≤ a * b * c := Nat.mul_le_mul_right c h1

/-- A sum over `a * b * c` consecutive indices is the triple sum over the three mixed-radix digits of
    the index: the outer digit below `a`, the middle below `b`, the inner below `c`. -/
theorem sum_fin_mul_mul {M : Type*} [AddCommMonoid M] (a b c : ℕ) (f : Fin (a * b * c) → M) :
    ∑ n, f n = ∑ s : Fin a, ∑ j : Fin b, ∑ r : Fin c, f ⟨(s.val * b + j.val) * c + r.val, digits_lt s j r⟩ :=
  calc ∑ n, f n
      = ∑ p : Fin (a * b) × Fin c, f (finProdFinEquiv p) := (Equiv.sum_comp finProdFinEquiv f).symm
    _ = ∑ p : Fin (a * b), ∑ r : Fin c, f (finProdFinEquiv (p, r)) := Fintype.sum_prod_type _
    _ = ∑ q : Fin a × Fin b, ∑ r : Fin c, f (finProdFinEquiv (finProdFinEquiv q, r)) :=
        (Equiv.sum_comp finProdFinEquiv fun p : Fin (a * b) => ∑ r : Fin c, f (finProdFinEquiv (p, r))).symm
    _ = ∑ s : Fin a, ∑ j : Fin b, ∑ r : Fin c, f (finProdFinEquiv (finProdFinEquiv (s, j), r)) :=
        Fintype.sum_prod_type _
    _ = _ := by
        refine Finset.sum_congr rfl fun s _ => Finset.sum_congr rfl fun j _ => Finset.sum_congr rfl fun r _ => ?_
        congr 1
        apply Fin.ext
        simp only [finProdFinEquiv_apply_val]
        ring

/-- A sum over 100000 rows, taken as 2 slices of 10 blocks of 5000 rows. -/
theorem sum_rows_tiled {M : Type*} [AddCommMonoid M] (f : Fin 100000 → M) :
    ∑ n, f n = ∑ s : Fin 2, ∑ j : Fin 10, ∑ r : Fin 5000,
      f ⟨(s.val * 10 + j.val) * 5000 + r.val, by omega⟩ :=
  sum_fin_mul_mul 2 10 5000 f

/-- A sum over 100000 rows, taken as 2 slices of 50 blocks of 1000 rows. -/
theorem sum_rows_tiled_pool {M : Type*} [AddCommMonoid M] (f : Fin 100000 → M) :
    ∑ n, f n = ∑ s : Fin 2, ∑ j : Fin 50, ∑ r : Fin 1000,
      f ⟨(s.val * 50 + j.val) * 1000 + r.val, by omega⟩ :=
  sum_fin_mul_mul 2 50 1000 f

/-! ### A mask-weighted sum -/

/-- Weighting each term by the 0/1 indicator of a predicate and summing over everything is summing over
    the members that satisfy the predicate. -/
theorem sum_mask_eq_sum_filter {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  split_ifs <;> simp

/-! ### The single-precision words, as the extended reals they denote -/

/-- The word of `100000.0` denotes the real `100000`. -/
theorem ofBits_100000 : Ideal.ofBits .f32 0x47C35000#32 = ((100000 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := Ideal.ofBits_zero_f32

/-- The word of the epsilon added under the square root denotes the dyadic `10995116 · 2⁻⁴⁰`. -/
theorem ofBits_eps_eq :
    Ideal.ofBits .f32 0x3727C5AC#32 = (((10995116 : ℝ) * (2 : ℝ) ^ (-40 : ℤ) : ℝ) : EReal) := by
  simp [Ideal.ofBits, Ideal.ieee, -EReal.coe_mul]

/-- The word of the epsilon added under the square root denotes a positive real. -/
theorem ofBits_eps :
    0 < Ideal.ofBits .f32 0x3727C5AC#32 ∧ IsReal (Ideal.ofBits .f32 0x3727C5AC#32) := by
  rw [ofBits_eps_eq]
  exact ⟨EReal.coe_pos.mpr (by positivity), isReal_coe _⟩

/-! ### A small index word and its signed value -/

/-- A 32-bit word equals the word of a number below 1024 exactly when its signed value is that number. -/
theorem toInt_ofNat_eq_iff (b : BitVec 32) (g : Nat) (hg : g < 1024) :
    b = BitVec.ofNat 32 g ↔ b.toInt = (g : ℤ) := by
  have hv : (BitVec.ofNat 32 g).toInt = (g : ℤ) := by
    rw [BitVec.toInt_eq_msb_cond,
      BitVec.msb_eq_false_iff_two_mul_lt.mpr (by simp [BitVec.toNat_ofNat]; omega)]
    simp [BitVec.toNat_ofNat]; omega
  exact ⟨fun h => h ▸ hv, fun h => BitVec.eq_of_toInt_eq (h.trans hv.symm)⟩

end Cert.LibFinite

end
-- ==== Proof.MomentLaws.lean ====
/-
  Two laws of a finite column of real numbers, stated on the extended reals where the programs compute.

  Let `x₀ … x₁₉₉₉₉₉` be real and `μ = (0 + ∑ xₖ) / 200000`. Then the deviations `xₖ − μ` sum to zero, so their
  mean is zero; and the mean of the squared deviations is the mean of the squares less `μ²`. Both need the
  entries to be real: with an infinity among them a difference `xₖ − μ` need not cancel.
-/
import proofs.«116832_j78176994722585_1_alg».proof.Proof.Cols
import proofs.«116832_j78176994722585_1_alg».proof.Proof.LibFiniteSums

noncomputable section

namespace Cert.Moments

open Idealize.ShloMosaic Cert.LibFinite

/-- The single-precision word the programs divide by is the real number 200000.
    The word's sign bit is clear, its exponent field is 144 and its fraction field is 4411392, so it denotes
    `(1 + 4411392 / 2²³) · 2¹⁴⁴⁻¹²⁷ = (12800000 / 2²³) · 2¹⁷ = 200000`. -/
theorem ofBits_rows : Ideal.ofBits .f32 0x48435000#32 = rows := by
  simp [Ideal.ofBits, Ideal.ieee, -EReal.coe_mul]; norm_num

/-! ### The same laws among real numbers

Every step below is about real numbers; the extended reals enter only at the end, through the casts. -/

/-- Dividing the cast of a real by the number of rows is casting the real quotient: the divisor is a nonzero
    real, so the quotient is the product with its reciprocal, and a product of casts is the cast of the
    product. -/
private theorem div_rows_coe (a : ℝ) :
    Ideal.div (a : EReal) rows = ((a * (1 / 200000) : ℝ) : EReal) := by
  show Ideal.div (a : EReal) ((200000 : ℝ) : EReal) = _
  rw [Ideal.div_coe (by norm_num : (200000 : ℝ) ≠ 0), ← EReal.coe_mul]

/-- Among reals: subtracting from each of 200000 numbers their mean leaves numbers that sum to zero, since
    `∑ (rₖ − μ) = ∑ rₖ − 200000 · μ` and `200000 · μ = ∑ rₖ`. -/
private theorem real_sum_dev (r : Fin 200000 → ℝ) :
    ∑ k : Fin 200000, (r k - (∑ k' : Fin 200000, r k') * (1 / 200000)) = 0 := by
  rw [Finset.sum_sub_distrib, Finset.sum_const, Finset.card_univ, Fintype.card_fin, nsmul_eq_mul]
  push_cast
  ring

/-- Among reals: with `S = ∑ rₖ`, `Q = ∑ rₖ²` and `μ = S / 200000`, expanding the square gives
    `∑ (rₖ − μ)² = Q − 2 μ S + 200000 μ²`, and since `μ S = 200000 μ²` this is `Q − 200000 μ²`. -/
private theorem real_sum_sq_dev (r : Fin 200000 → ℝ) :
    ∑ k : Fin 200000, (r k - (∑ k' : Fin 200000, r k') * (1 / 200000))
        * (r k - (∑ k' : Fin 200000, r k') * (1 / 200000))
      = (∑ k : Fin 200000, r k * r k)
        - 200000 * (((∑ k' : Fin 200000, r k') * (1 / 200000)) * ((∑ k' : Fin 200000, r k') * (1 / 200000))) := by
  set S : ℝ := ∑ k' : Fin 200000, r k' with hS
  set μ : ℝ := S * (1 / 200000) with hμ
  -- each square, expanded
  have hexp : ∀ k : Fin 200000, (r k - μ) * (r k - μ) = r k * r k - 2 * μ * r k + μ * μ := fun k => by ring
  simp only [hexp]
  -- the sum of the three parts: the squares, the cross terms `2 μ ∑ rₖ`, and 200000 copies of `μ²`
  rw [Finset.sum_add_distrib, Finset.sum_sub_distrib, ← Finset.mul_sum, Finset.sum_const, Finset.card_univ,
    Fintype.card_fin, nsmul_eq_mul, ← hS]
  push_cast
  -- `μ S = 200000 μ²` because `S = 200000 μ`
  have hSμ : S = 200000 * μ := by rw [hμ]; ring
  rw [hSμ]
  ring

/-! ### The laws on the extended reals -/

/-- The mean of the deviations from the mean is zero. -/
theorem mean_dev_zero (x : Fin 200000 → EReal) (hx : ∀ k, IsReal (x k)) :
    Ideal.div (0 + ∑ k : Fin 200000, (x k - Ideal.div (0 + ∑ k' : Fin 200000, x k') rows)) rows = 0 := by
  -- every entry is the cast of a real number `r k`
  choose r hr using fun k => (hx k).exists_coe
  simp only [hr]
  -- the sum of the casts is the cast of the real sum, and the mean is the cast of the real mean
  rw [zero_add, zero_add, ← coe_sum, div_rows_coe]
  -- each deviation is the cast of the real deviation, and so is their sum
  simp only [← EReal.coe_sub]
  rw [← coe_sum, div_rows_coe, real_sum_dev, zero_mul, EReal.coe_zero]

/-- The mean of the squared deviations is the mean of the squares less the square of the mean. -/
theorem mean_sq_dev (x : Fin 200000 → EReal) (hx : ∀ k, IsReal (x k)) :
    Ideal.div (0 + ∑ k : Fin 200000,
        (x k - Ideal.div (0 + ∑ k' : Fin 200000, x k') rows) * (x k - Ideal.div (0 + ∑ k' : Fin 200000, x k') rows)) rows
      = Ideal.div (∑ k : Fin 200000, x k * x k) rows
        - Ideal.div (∑ k : Fin 200000, x k) rows * Ideal.div (∑ k : Fin 200000, x k) rows := by
  -- every entry is the cast of a real number `r k`
  choose r hr using fun k => (hx k).exists_coe
  simp only [hr]
  -- left side: the mean, each squared deviation and their sum are casts of the real ones
  rw [zero_add, zero_add, ← coe_sum, div_rows_coe]
  simp only [← EReal.coe_sub, ← EReal.coe_mul]
  rw [← coe_sum, ← coe_sum, div_rows_coe, div_rows_coe, ← EReal.coe_sub, real_sum_sq_dev]
  -- what remains is an identity of real numbers: `(Q − 200000 μ²) / 200000 = Q / 200000 − μ²`
  congr 1
  ring

end Cert.Moments

end
-- ==== Proof.RefValue.lean ====
/-
  The reference's result as one function of the argument arrays.

  The reference computes, per column, the mean, the mean of the deviations from it and the mean of the squared
  deviations; lays the three side by side; and contracts the row so made, less `mu`, against `W`. For a table of
  real numbers the three are the column's mean, zero, and the column's raw-moment variance.
-/
import proofs.«116832_j78176994722585_1_alg».proof.Proof.Gen.ReferenceIdeal.Read
import proofs.«116832_j78176994722585_1_alg».proof.Proof.Cols
import proofs.«116832_j78176994722585_1_alg».proof.Proof.MomentLaws

noncomputable section

namespace Cert.ReferenceIdeal.RefValue

open Idealize.ShloMosaic Cert.ReferenceIdeal Cert.ReferenceIdeal.Gen Cert.ReferenceIdeal.Read Cert.Moments Cert.LibFinite

/-- The programs' last eight operations as one function of three per-column vectors, `mu` and `W`: the three
    laid side by side as a `[576, 3]` matrix, read as one row of 1728, less `mu`, contracted against `W`. -/
def tail (a b c : FVec Ideal S576 .f32) (mu : FVec Ideal S1728 .f32) (W : FVec Ideal S1728x4 .f32) : FVec Ideal S1x4 .f32 :=
  Host.dotGeneral dot_S1x1728_S1728x4_S1x4_1_0_0_1_n_n none
    (subf (shapeCast _ (concatenate S576x3 1 [⟨S576x1, broadcastInDim S576x1 ![0] bcast_S576_S576x1_0 a⟩,
        ⟨S576x1, broadcastInDim S576x1 ![0] bcast_S576_S576x1_0 b⟩, ⟨S576x1, broadcastInDim S576x1 ![0] bcast_S576_S576x1_0 c⟩]
        concatenates_S576x1_S576x1_S576x1_S576x3_d1) shapeCasts_S576x3_S1x1728)
      (broadcastInDim S1x1728 ![1] bcast_S1728_S1x1728_1 mu)) W

/-- The reference's last stage is that function of its three per-column stages. -/
theorem val_main_v20_tail (X : FVec Ideal S200000x576 .f32) (mu : FVec Ideal S1728 .f32) (W : FVec Ideal S1728x4 .f32) :
    val_main_v20 (F := Ideal) X mu W = tail (val_main_v2 (F := Ideal) X) (val_main_v8 (F := Ideal) X) (val_main_v12 (F := Ideal) X) mu W := by
  -- Each stage is by definition its operation applied to the earlier stages; unfolding the last eight
  -- (the three column-to-matrix broadcasts, the join, the reshape, the broadcast of `mu`, the difference,
  -- the contraction) gives `tail` word for word.
  rfl

/-- A column's coordinate survives the trip through the two broadcasts: reading row `k` of column `i` in the
    table, forgetting the row, and then reading the one-row matrix's second coordinate gives `i` back. -/
private theorem idx_back (i : S576.Idx) (k : Fin 200000) :
    idx_main_v3 (idx_main_v4 (idx_main_v6 i k)) = i :=
  funext fun a => Fin.ext (by match a with | ⟨0, _⟩ => rfl)

/-- The first per-column stage, read at a column: the zero the sum starts from, plus the column's entries,
    over the number of rows. -/
private theorem mean_stage (X : FVec Ideal S200000x576 .f32) (i : S576.Idx) :
    val_main_v2 (F := Ideal) X i = Ideal.div (0 + ∑ k : Fin 200000, X (colIdx i k)) rows := by
  rw [val_main_v2_apply, val_main_v0_apply, val_main_v1_apply]
  simp only [val_main_cst_apply, val_main_cst_0_apply, Ideal.ofBits_def, Ideal.hostDivf_def,
    Cert.LibFinite.ofBits_zero, ofBits_rows]
  -- What is left differs only in the name of the index function: both send the first axis to `k` and the
  -- second to the column's coordinate.
  rfl

/-- The deviation of an entry from its column's mean, as the reference computes it: the mean is broadcast
    first to a one-row matrix and then down the rows, so at row `k` of column `i` it is the mean of column `i`. -/
private theorem dev_stage (X : FVec Ideal S200000x576 .f32) (i : S576.Idx) (k : Fin 200000) :
    val_main_v5 (F := Ideal) X (colIdx i k)
      = X (colIdx i k) - Ideal.div (0 + ∑ k' : Fin 200000, X (colIdx i k')) rows := by
  rw [val_main_v5_apply, val_main_v4_apply, val_main_v3_apply, Ideal.subf_def]
  rw [show idx_main_v3 (idx_main_v4 (colIdx i k)) = i from idx_back i k, mean_stage]

/-- The first per-column stage is the column's mean (no finiteness needed). -/
theorem ref_mean (X : FVec Ideal S200000x576 .f32) (i : S576.Idx) :
    val_main_v2 (F := Ideal) X i = colMean X i := by
  -- The sum starts from the constant zero, and `0 + s = s` on the extended reals.
  rw [mean_stage, zero_add]
  rfl

/-- The second is zero when the table's entries are real. -/
theorem ref_dev (X : FVec Ideal S200000x576 .f32) (hX : ∀ j, IsReal (X j)) (i : S576.Idx) :
    val_main_v8 (F := Ideal) X i = 0 := by
  -- The stage is `(0 + ∑ₖ (xₖ − μ)) / 200000` with `xₖ` the column's entries and `μ` their mean as computed
  -- by the first stage; for real entries the deviations sum to zero.
  rw [val_main_v8_apply, val_main_v6_apply, val_main_v7_apply]
  simp only [val_main_cst_1_apply, val_main_cst_2_apply, Ideal.ofBits_def, Ideal.hostDivf_def,
    Cert.LibFinite.ofBits_zero, ofBits_rows]
  have h : ∀ k : Fin 200000, val_main_v5 (F := Ideal) X (idx_main_v6 i k)
      = X (colIdx i k) - Ideal.div (0 + ∑ k' : Fin 200000, X (colIdx i k')) rows := dev_stage X i
  rw [Finset.sum_congr rfl fun k _ => h k]
  exact mean_dev_zero (fun k => X (colIdx i k)) (fun k => hX _)

/-- The third is the column's raw-moment variance when the table's entries are real. -/
theorem ref_var (X : FVec Ideal S200000x576 .f32) (hX : ∀ j, IsReal (X j)) (i : S576.Idx) :
    val_main_v12 (F := Ideal) X i = colVar X i := by
  -- The stage is `(0 + ∑ₖ (xₖ − μ)(xₖ − μ)) / 200000`; for real entries that is the mean of the squares
  -- less the square of the mean, which is how `colVar` is written.
  rw [val_main_v12_apply, val_main_v10_apply, val_main_v11_apply]
  simp only [val_main_cst_3_apply, val_main_cst_4_apply, Ideal.ofBits_def, Ideal.hostDivf_def,
    Cert.LibFinite.ofBits_zero, ofBits_rows]
  have h : ∀ k : Fin 200000, val_main_v9 (F := Ideal) X (idx_main_v10 i k)
      = (X (colIdx i k) - Ideal.div (0 + ∑ k' : Fin 200000, X (colIdx i k')) rows)
        * (X (colIdx i k) - Ideal.div (0 + ∑ k' : Fin 200000, X (colIdx i k')) rows) := fun k => by
    rw [val_main_v9_apply, Ideal.mulf_def]
    exact congrArg (fun t => t * t) (dev_stage X i k)
  rw [Finset.sum_congr rfl fun k _ => h k]
  exact mean_sq_dev (fun k => X (colIdx i k)) (fun k => hX _)

/-- The reference's result for a table of real numbers. -/
theorem ref_result (X : FVec Ideal S200000x576 .f32) (hX : ∀ j, IsReal (X j)) (mu : FVec Ideal S1728 .f32) (W : FVec Ideal S1728x4 .f32) :
    val_main_v20 (F := Ideal) X mu W = tail (colMean X) (fun _ => (0 : EReal)) (colVar X) mu W := by
  rw [val_main_v20_tail]
  congr 1
  · exact funext fun i => ref_mean X i
  · exact funext fun i => ref_dev X hX i
  · exact funext fun i => ref_var X hX i

end Cert.ReferenceIdeal.RefValue

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.KernelAcc.lean ====
/-
  The kernel's two running accumulators as sums.

  At each grid point the kernel adds to a one-row accumulator the column sums of the point's tile of 5000 rows
  (and to a second one the column sums of the tile's squares); the first point starts both from zero. After the
  fortieth point the accumulators hold, column by column, the sum and the sum of squares of all 200000 rows: a
  sum taken tile by tile is the whole sum, by associativity alone.
-/
import proofs.«116832_j78176994722585_1_alg».proof.Proof.Gen.KernelIdeal.Skeleton
import proofs.«116832_j78176994722585_1_alg».proof.Proof.Cols
import proofs.«116832_j78176994722585_1_alg».proof.Proof.LibTileSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Acc

open Idealize.ShloMosaic Cert.KernelIdeal Cert.KernelIdeal.Gen Cert.Moments

/-- Entry `r` of column `i` inside a tile of 5000 rows, and column `i`'s place in a one-row accumulator. -/
abbrev tileIdx (i : SV.Idx) (r : Fin 5000) : S5000x576.Idx := fun a => match a with
  | ⟨0, _⟩ => ⟨r.val, r.isLt⟩
  | ⟨1, _⟩ => ⟨(i 0).val, (i 0).isLt⟩
abbrev rowIdx (i : SV.Idx) : S1x576.Idx := fun a => match a with
  | ⟨0, _⟩ => ⟨0, Nat.one_pos⟩
  | ⟨1, _⟩ => ⟨(i 0).val, (i 0).isLt⟩

/-- The accumulator of sums after point `n`, over tiles `blk 0, blk 1, …`: the first point stores zero and adds its
    tile's column sums, every later point adds its own to what the point before left. -/
def acc1 (blk : ℕ → Vec Ideal S5000x576 .f32) : ℕ → Vec Ideal S1x576 .f32
  | 0 => k0_pay3 (F := Ideal) (blk 0) (k0_pay1 (F := Ideal))
  | n + 1 => k0_pay3 (F := Ideal) (blk (n + 1)) (acc1 blk n)

/-- The accumulator of sums of squares after point `n`. -/
def acc2 (blk : ℕ → Vec Ideal S5000x576 .f32) : ℕ → Vec Ideal S1x576 .f32
  | 0 => k0_pay4 (F := Ideal) (blk 0) (k0_pay2 (F := Ideal))
  | n + 1 => k0_pay4 (F := Ideal) (blk (n + 1)) (acc2 blk n)

/-! ## The payloads at an index -/

/-- The value the first point stores before it accumulates is the zero word broadcast over the row, under a shape
    cast to the same shape: zero at every column. -/
private theorem pay1_apply (j : S1x576.Idx) : k0_pay1 (F := Ideal) j = 0 := by
  unfold k0_pay1
  show shapeCast S1x576 (broadcast S1x576 (Scalar.ofBits .f32 0x00000000#32)) shapeCasts_S1x576_S1x576 j = 0
  rw [shapeCast_self]
  exact Ideal.ofBits_zero_f32

/-- Likewise for the accumulator of squares. -/
private theorem pay2_apply (j : S1x576.Idx) : k0_pay2 (F := Ideal) j = 0 := by
  unfold k0_pay2
  show shapeCast S1x576 (broadcast S1x576 (Scalar.ofBits .f32 0x00000000#32)) shapeCasts_S1x576_S1x576 j = 0
  rw [shapeCast_self]
  exact Ideal.ofBits_zero_f32

/-- The lane sums of a tile, cast from one axis of 576 to a row `[1, 576]`, read at column `i` of the row: the sum
    over the tile's 5000 rows of its entries in column `i`. The cast only adds a unit axis, so the row's entry
    `(0, i)` is the vector's entry `i`; the reduction over axis 0 at `i` is the sum over that axis's coordinates
    of the tile at (coordinate, `i`). -/
private theorem laneSum_apply (y : Vec Ideal S5000x576 .f32) (i : SV.Idx) :
    shapeCast S1x576 (multiReduction (F := Ideal) .add [0] S576 y 0x00000000#32 reduces_S5000x576_S576 (.inl rfl) rfl)
        shapeCasts_S576_S1x576 (rowIdx i)
      = ∑ r : Fin 5000, y (tileIdx i r) := by
  refine (shapeCast_addUnit_apply ![576] _ shapeCasts_S576_S1x576 (rowIdx i)).trans ?_
  refine (Ideal.multiReduction_add_single _ _ reduces_S5000x576_S576 _ _ _).trans ?_
  refine Finset.sum_congr rfl fun r _ => ?_
  exact congrArg y (funext fun a => Fin.ext (by match a with | ⟨0, _⟩ => rfl | ⟨1, _⟩ => rfl))

/-- What a point stores into the accumulator of sums, at column `i`: what the accumulator held there plus the
    tile's column sum. The outer shape cast is to the same shape, the addition is pointwise, and at the ideal
    values it is the addition of extended reals. -/
private theorem pay3_apply (x : Vec Ideal S5000x576 .f32) (a : Vec Ideal S1x576 .f32) (i : SV.Idx) :
    k0_pay3 (F := Ideal) x a (rowIdx i) = a (rowIdx i) + ∑ r : Fin 5000, x (tileIdx i r) := by
  unfold k0_pay3
  show shapeCast S1x576 (addf a (shapeCast S1x576 (multiReduction (F := Ideal) .add [0] S576 x 0x00000000#32
    reduces_S5000x576_S576 (.inl rfl) rfl) shapeCasts_S576_S1x576)) shapeCasts_S1x576_S1x576 (rowIdx i) = _
  rw [shapeCast_self]
  show a (rowIdx i) + shapeCast S1x576 (multiReduction (F := Ideal) .add [0] S576 x 0x00000000#32
    reduces_S5000x576_S576 (.inl rfl) rfl) shapeCasts_S576_S1x576 (rowIdx i) = _
  rw [laneSum_apply]

/-- What a point stores into the accumulator of squares: the same over the tile's entrywise square. -/
private theorem pay4_apply (x : Vec Ideal S5000x576 .f32) (a : Vec Ideal S1x576 .f32) (i : SV.Idx) :
    k0_pay4 (F := Ideal) x a (rowIdx i)
      = a (rowIdx i) + ∑ r : Fin 5000, x (tileIdx i r) * x (tileIdx i r) := by
  unfold k0_pay4
  show shapeCast S1x576 (addf a (shapeCast S1x576 (multiReduction (F := Ideal) .add [0] S576 (mulf x x) 0x00000000#32
    reduces_S5000x576_S576 (.inl rfl) rfl) shapeCasts_S576_S1x576)) shapeCasts_S1x576_S1x576 (rowIdx i) = _
  rw [shapeCast_self]
  show a (rowIdx i) + shapeCast S1x576 (multiReduction (F := Ideal) .add [0] S576 (mulf x x) 0x00000000#32
    reduces_S5000x576_S576 (.inl rfl) rfl) shapeCasts_S576_S1x576 (rowIdx i) = _
  rw [laneSum_apply]
  rfl

/-! ## The accumulators after point `n` -/

/-- After point `n` the accumulator of sums holds, at column `i`, the sum over the tiles `0 … n` of each tile's
    column sum: the first point adds its tile's to zero, each later point its own to the sum so far. -/
private theorem acc1_eq_sum (blk : ℕ → Vec Ideal S5000x576 .f32) (i : SV.Idx) (n : ℕ) :
    acc1 blk n (rowIdx i) = ∑ t ∈ Finset.range (n + 1), ∑ r : Fin 5000, blk t (tileIdx i r) := by
  induction n with
  | zero =>
    show k0_pay3 (F := Ideal) (blk 0) (k0_pay1 (F := Ideal)) (rowIdx i) = _
    rw [pay3_apply, pay1_apply, zero_add, Finset.sum_range_one]
  | succ n ih =>
    show k0_pay3 (F := Ideal) (blk (n + 1)) (acc1 blk n) (rowIdx i) = _
    rw [pay3_apply, ih, Finset.sum_range_succ _ (n + 1)]

/-- And the accumulator of squares the sum over the tiles of each tile's column sum of squares. -/
private theorem acc2_eq_sum (blk : ℕ → Vec Ideal S5000x576 .f32) (i : SV.Idx) (n : ℕ) :
    acc2 blk n (rowIdx i)
      = ∑ t ∈ Finset.range (n + 1), ∑ r : Fin 5000, blk t (tileIdx i r) * blk t (tileIdx i r) := by
  induction n with
  | zero =>
    show k0_pay4 (F := Ideal) (blk 0) (k0_pay2 (F := Ideal)) (rowIdx i) = _
    rw [pay4_apply, pay2_apply, zero_add, Finset.sum_range_one]
  | succ n ih =>
    show k0_pay4 (F := Ideal) (blk (n + 1)) (acc2 blk n) (rowIdx i) = _
    rw [pay4_apply, ih, Finset.sum_range_succ _ (n + 1)]

/-! ## Forty tiles are the table -/

/-- Forty tiles of 5000 numbers, tile `t` holding the entries `5000 t … 5000 t + 4999` of a list `Y` of 200000, sum
    tile by tile to the sum of the list: read `Y` at a natural index (zero past the end, which no tile reaches),
    and the sum over `40 · 5000` consecutive naturals splits into the forty tiles' sums. -/
private theorem sum_tiles (Y : Fin 200000 → EReal) (T : ℕ → Fin 5000 → EReal)
    (hT : ∀ (t : Fin 40) (r : Fin 5000), T t.val r = Y ⟨5000 * t.val + r.val, by omega⟩) :
    ∑ t ∈ Finset.range 40, ∑ r : Fin 5000, T t r = ∑ k : Fin 200000, Y k := by
  let g : ℕ → EReal := fun k => if h : k < 200000 then Y ⟨k, h⟩ else 0
  have hL : ∑ t ∈ Finset.range 40, ∑ r : Fin 5000, T t r
      = ∑ t ∈ Finset.range 40, ∑ r : Fin 5000, g (5000 * t + r.val) := by
    refine Finset.sum_congr rfl fun t ht => Finset.sum_congr rfl fun r _ => ?_
    have ht' : t < 40 := Finset.mem_range.1 ht
    have hr : r.val < 5000 := r.isLt
    have hk : 5000 * t + r.val < 200000 := by omega
    show T t r = if h : 5000 * t + r.val < 200000 then Y ⟨5000 * t + r.val, h⟩ else 0
    rw [dif_pos hk]
    exact hT ⟨t, ht'⟩ r
  rw [hL, TileSum.sum_range_tiles_eq_sum_fin g 40 5000]
  show ∑ k : Fin 200000, g k.val = _
  refine Finset.sum_congr rfl fun k _ => ?_
  show (if h : k.val < 200000 then Y ⟨k.val, h⟩ else 0) = Y k
  rw [dif_pos k.isLt]

/-- When tile `t` holds rows `5000 t … 5000 t + 4999` of the table, the first accumulator after the fortieth point
    holds each column's sum. -/
theorem acc1_last (X : SX.Idx → EReal) (blk : ℕ → Vec Ideal S5000x576 .f32)
    (hblk : ∀ (t : Fin 40) (r : Fin 5000) (i : SV.Idx),
      blk t.val (tileIdx i r) = X (colIdx i ⟨5000 * t.val + r.val, by omega⟩))
    (i : SV.Idx) : acc1 blk 39 (rowIdx i) = colSum X i := by
  -- the accumulator is the tiles' column sums added up; the tiles are the table's rows in order
  rw [acc1_eq_sum]
  unfold colSum
  exact sum_tiles (fun k => X (colIdx i k)) (fun t r => blk t (tileIdx i r)) fun t r => hblk t r i

/-- And the second each column's sum of squares. -/
theorem acc2_last (X : SX.Idx → EReal) (blk : ℕ → Vec Ideal S5000x576 .f32)
    (hblk : ∀ (t : Fin 40) (r : Fin 5000) (i : SV.Idx),
      blk t.val (tileIdx i r) = X (colIdx i ⟨5000 * t.val + r.val, by omega⟩))
    (i : SV.Idx) : acc2 blk 39 (rowIdx i) = colSumSq X i := by
  -- the same with each entry squared: a tile's entry squared is the table's entry squared
  rw [acc2_eq_sum]
  unfold colSumSq
  exact sum_tiles (fun k => X (colIdx i k) * X (colIdx i k))
    (fun t r => blk t (tileIdx i r) * blk t (tileIdx i r)) fun t r => by rw [hblk t r i]

end Cert.KernelIdeal.Acc

end
-- ==== Proof.KernelTail.lean ====
/-
  The host operations the program runs after the kernel, as one function of the kernel's two result rows.

  From the row of column sums `S₁` and the row of column sums of squares `S₂` the program forms, per column, the
  mean `S₁ / 200000`, a zero, and `S₂ / 200000 − mean²`; casts each one-row matrix to a vector; and then lays the
  three side by side, reads them as one row of 1728, subtracts `mu` and contracts against `W` — the same last eight
  operations as the reference's. When the rows hold the table's column sums, the result is therefore the
  reference's tail at the column's mean, zero and raw-moment variance.
-/
import proofs.«116832_j78176994722585_1_alg».proof.Proof.Gen.KernelIdeal.Launch
import proofs.«116832_j78176994722585_1_alg».proof.Proof.RefValue
import proofs.«116832_j78176994722585_1_alg».proof.Proof.KernelAcc
import Idealize.ShloMosaic.Lib.ValueIdx
import Idealize.ShloMosaic.Lib.ValueLayout
import Idealize.ShloMosaic.Lib.Pipeline.Value

noncomputable section

namespace Cert.KernelIdeal.Tail

open Idealize.ShloMosaic Cert.KernelIdeal Cert.KernelIdeal.Gen Cert.Moments Cert.KernelIdeal.Acc

/-- The 21 operations after the kernel, composed: the value they leave in the program's result buffer, from the
    kernel's two result rows, `mu` and `W`. -/
def hostTail (S1 S2 : FVec Ideal S1x576 .f32) (mu : FVec Ideal S1728 .f32) (W : FVec Ideal S1728x4 .f32) : FVec Ideal S1x4 .f32 :=
  let n : FVec Ideal S1x576 .f32 := broadcastInDim S1x576 ![] bcast_S_S1x576 (constant (F := Ideal) S_ .f32 0x48435000#32)
  let mean : FVec Ideal S1x576 .f32 := Host.divf S1 n
  let zero : FVec Ideal S1x576 .f32 := broadcastInDim S1x576 ![] bcast_S_S1x576 (constant (F := Ideal) S_ .f32 0x00000000#32)
  let var : FVec Ideal S1x576 .f32 := subf (Host.divf S2 n) (mulf mean mean)
  Host.dotGeneral dot_S1x1728_S1728x4_S1x4_1_0_0_1_n_n none
    (subf (shapeCast _ (concatenate S576x3 1 [⟨S576x1, broadcastInDim S576x1 ![0] bcast_S576_S576x1_0 (shapeCast S576 mean shapeCasts_S1x576_S576)⟩,
        ⟨S576x1, broadcastInDim S576x1 ![0] bcast_S576_S576x1_0 (shapeCast S576 zero shapeCasts_S1x576_S576)⟩,
        ⟨S576x1, broadcastInDim S576x1 ![0] bcast_S576_S576x1_0 (shapeCast S576 var shapeCasts_S1x576_S576)⟩]
        concatenates_S576x1_S576x1_S576x1_S576x3_d1) shapeCasts_S576x3_S1x1728)
      (broadcastInDim S1x1728 ![1] bcast_S1728_S1x1728_1 mu)) W

/-- A one-row matrix `[1, 576]` cast to a vector `[576]` reads, at column `i`, the row's entry `(0, i)`: both have
    row-major position `i`. -/
private theorem rowCast_apply {α : Type} (v : S1x576.Idx → α) (i : SV.Idx) :
    shapeCast S576 v shapeCasts_S1x576_S576 i = v (rowIdx i) :=
  shapeCast_apply v shapeCasts_S1x576_S576 i (rowIdx i) (by
    rw [Shape.rowMajor_val_two, Shape.rowMajor_val_one]
    show 0 * 576 + (i 0).val = (i 0).val
    rw [Nat.zero_mul, Nat.zero_add])

/-- A scalar broadcast over the one-row matrix reads the scalar at every entry. -/
private theorem scalarRow_apply (w : BitVec 32) (j : S1x576.Idx) :
    broadcastInDim S1x576 ![] bcast_S_S1x576 (constant (F := Ideal) S_ .f32 w) j = Ideal.ofBits .f32 w :=
  broadcastInDim_apply _ bcast_S_S1x576 (constant (F := Ideal) S_ .f32 w) j (fun a => a.elim0) (fun a => a.elim0)

/-- With the table's column sums and column sums of squares in the two rows, the program's result is the
    reference's tail at each column's mean, zero, and raw-moment variance. -/
theorem hostTail_eq (X : SX.Idx → EReal) (S1 S2 : FVec Ideal S1x576 .f32)
    (h1 : ∀ i : SV.Idx, S1 (rowIdx i) = colSum X i) (h2 : ∀ i : SV.Idx, S2 (rowIdx i) = colSumSq X i)
    (mu : FVec Ideal S1728 .f32) (W : FVec Ideal S1728x4 .f32) :
    hostTail S1 S2 mu W = Cert.ReferenceIdeal.RefValue.tail (colMean X) (fun _ => (0 : EReal)) (colVar X) mu W := by
  -- The program's last eight operations are the reference's, applied to the three one-row matrices cast to
  -- vectors: the two programs name the same literal shapes, and their contraction records have the same fields,
  -- so the two expressions are one term. What is left is that the three vectors are the mean, zero, the variance.
  refine Eq.trans (show hostTail S1 S2 mu W = Cert.ReferenceIdeal.RefValue.tail
    (shapeCast S576 (Host.divf S1 (broadcastInDim S1x576 ![] bcast_S_S1x576 (constant (F := Ideal) S_ .f32 0x48435000#32))) shapeCasts_S1x576_S576)
    (shapeCast S576 (broadcastInDim S1x576 ![] bcast_S_S1x576 (constant (F := Ideal) S_ .f32 0x00000000#32)) shapeCasts_S1x576_S576)
    (shapeCast S576 (subf (Host.divf S2 (broadcastInDim S1x576 ![] bcast_S_S1x576 (constant (F := Ideal) S_ .f32 0x48435000#32)))
      (mulf (Host.divf S1 (broadcastInDim S1x576 ![] bcast_S_S1x576 (constant (F := Ideal) S_ .f32 0x48435000#32)))
        (Host.divf S1 (broadcastInDim S1x576 ![] bcast_S_S1x576 (constant (F := Ideal) S_ .f32 0x48435000#32))))) shapeCasts_S1x576_S576)
    mu W from rfl) ?_
  congr 1
  · -- the mean: the row of sums over the row whose every entry is the word for 200000, at column `i`
    funext i
    rw [rowCast_apply]
    show Ideal.div (S1 (rowIdx i)) _ = colMean X i
    rw [scalarRow_apply, ofBits_rows, h1]
    rfl
  · -- the row whose every entry is the zero word
    funext i
    rw [rowCast_apply, scalarRow_apply]
    exact Ideal.ofBits_zero_f32
  · -- the variance: the mean of the squares less the square of the mean, entry by entry
    funext i
    rw [rowCast_apply]
    show Ideal.div (S2 (rowIdx i)) _ - Ideal.div (S1 (rowIdx i)) _ * Ideal.div (S1 (rowIdx i)) _ = colVar X i
    rw [scalarRow_apply, ofBits_rows, h1, h2]
    rfl

end Cert.KernelIdeal.Tail

end
-- ==== Proof.KernelIdealRun.lean ====
/-
  The program's result buffer after the run, named.

  The launch leaves its two result arrays at what the proof data compute; the 21 operations after it then leave in
  the program's result buffer their composition applied to those two rows, `mu` and `W`.
-/
import proofs.«116832_j78176994722585_1_alg».proof.Proof.KernelIdealFrame
import proofs.«116832_j78176994722585_1_alg».proof.Proof.KernelIdealKept
import proofs.«116832_j78176994722585_1_alg».proof.Proof.KernelTail
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The 21 operations run from any contents `V` leave in the result buffer their composition applied to what `V`
    holds at the four buffers they read and do not write first: the launch's two result rows, `mu` and `W`. Each
    operation's result at its own buffer is its function of its operands' contents, and at any other buffer what was
    there; composing the 21 in order gives the tail function word for word. -/
private theorem after_hostOps (V : Valuation τ sig (Elt Ideal)) :
    StableHlo.after hostOps1 V (Proc.devRef .tc main_v18)
      = Cert.KernelIdeal.Tail.hostTail (V (Proc.devRef .tc main_v0_0)) (V (Proc.devRef .tc main_v0_1))
          (V (Proc.devRef .tc main_arg1)) (V (Proc.devRef .tc main_arg2)) := by
  unfold Cert.KernelIdeal.Tail.hostTail
  after_results <;> rfl

/-- What the operations after the launch leave in the result buffer. -/
theorem tail_result (c : Dev nD) :
    Pipeline.afterTail₀ cfgs (dats m) 0 (entry0 m) [hostOps1] c main_v18
      = Cert.KernelIdeal.Tail.hostTail ((dats m 0 c).arrAt 1 cfg0.N) ((dats m 0 c).arrAt 2 cfg0.N)
          (m ((c : Thread nD τ).loc main_arg1)) (m ((c : Thread nD τ).loc main_arg2)) := by
  -- the operations run from what the launch leaves: its arrays at what the proof data compute, every other buffer
  -- at its contents at the launch's entry
  unfold Pipeline.afterTail₀
  show StableHlo.after hostOps1 _ (Proc.devRef .tc main_v18) = _
  refine (after_hostOps _).trans ?_
  -- the two result rows are the launch's second and third arrays; `mu` and `W` are no array of the launch, and at its
  -- entry they hold what the program started from
  refine congr (congr (congr (congrArg Cert.KernelIdeal.Tail.hostTail ?_) ?_) ?_) ?_
  · exact Pipeline.withArrays_arr spec0 launch0.win.arr_inj c _ _ 1
  · exact Pipeline.withArrays_arr spec0 launch0.win.arr_inj c _ _ 2
  · exact (Pipeline.withArrays_of_ne spec0 c _ _ main_arg1 (by intro w; fin_cases w <;> decide)).trans (entry_arg1 m c)
  · exact (Pipeline.withArrays_of_ne spec0 c _ _ main_arg2 (by intro w; fin_cases w <;> decide)).trans (entry_arg2 m c)

/-- The run with the result named and the arguments unchanged. -/
theorem run_value : θ_run defs (onTc (τ := τ) (main (F := Ideal))) ⟨m, fun _ => 0, ρ⟩ (fun r => ∀ c : Dev nD,
      r.2.mem ((c.tc : Thread nD τ).loc main_v18)
        = Cert.KernelIdeal.Tail.hostTail ((dats m 0 c).arrAt 1 cfg0.N) ((dats m 0 c).arrAt 2 cfg0.N)
            (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  -- the run ends with the launch's arrays at what the proof data compute and every bypassing buffer at what the
  -- operations after the launch leave: the result buffer at the tail function, the arguments as they began
  refine (θ_run defs _ _).mono (fun _ h c => ⟨?_, ?_, ?_, ?_⟩) (run_main m ρ)
  · exact ((h c).2 main_v18 (Pipeline.mem_restRefs_of main_v18 (by decide) (by decide))).trans (tail_result m c)
  · exact ((h c).1 0).trans (((dats m 0 c).arrAt_in 0 rfl _).trans ((A_eq m c 0).trans (entry_arg0 m c)))
  · exact ((h c).2 main_arg1 (Pipeline.mem_restRefs_of main_arg1 (by decide) (by decide))).trans (tail_arg1 m c)
  · exact ((h c).2 main_arg2 (Pipeline.mem_restRefs_of main_arg2 (by decide) (by decide))).trans (tail_arg2 m c)

end Cert.KernelIdeal.Region

end
-- ==== Proof.KernelIdealPieces.lean ====
/-
  What each case of the body leaves in the accumulators and the result buffers, as the kernel's own arithmetic.

  In every case the body's last store into an accumulator covers it whole, so the accumulator ends at the stored
  value: the tile's column sums (or the column sums of its squares) added to what the accumulator held when it
  was loaded — zero at the first point, where the reset's store comes first, and the previous contents otherwise.
  At the last point the result buffers receive what is then loaded back from the accumulators.
-/
import proofs.«116832_j78176994722585_1_alg».proof.Proof.KernelIdealFrame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (c : Dev nD) (i : grid0.Coords) (arg1 : Memref sig .tc .vmem S5000x576 .f32) (harg1 : arg1.IsWhole) (arg2 : Memref sig .tc .vmem S1x576 .f32) (harg2 : arg2.IsWhole) (arg3 : Memref sig .tc .vmem S1x576 .f32) (harg3 : arg3.IsWhole) (arg4 : Memref sig .tc .vmem S1x576 .f32) (harg4 : arg4.IsWhole) (arg5 : Memref sig .tc .vmem S1x576 .f32) (harg5 : arg5.IsWhole)

/-- Every store and load of the body goes through the whole-buffer rectangle, whose two offsets are both zero. -/
private theorem zero_offsets : (![0, 0] : Fin 2 → ℕ) = fun _ => 0 := by
  funext a; fin_cases a <;> rfl

theorem sFirst1_eq (hc0 : isFirst i) (hc1 : ¬isLast i) (x0 : Vec F S5000x576 .f32) :
    sFirst1 c i arg1 harg1 arg2 harg2 arg3 harg3 arg4 harg4 arg5 harg5 hc0 hc1 x0 = (k0_pay3 x0 (k0_pay1 (F := F)) : Vec F S1x576 .f32) := by
  unfold sFirst1
  rw [View.read_writes_eq_canon _ _ _ (coverFirst1 c i arg1 harg1 arg2 harg2 arg3 harg3 arg4 harg4 arg5 harg5 hc0 hc1 x0)]
  unfold runFirst
  dsimp only
  sl_unfold_words
  -- two stores went into this accumulator, each over all of it: the reset's (`k0_pay1`, the zeros) and then the
  -- accumulate's, which therefore decides the contents; the value it added to was loaded after the reset's
  -- store, so it is `k0_pay1`, the zeros
  rw [View.canon_cons_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem sFirst2_eq (hc0 : isFirst i) (hc1 : ¬isLast i) (x0 : Vec F S5000x576 .f32) :
    sFirst2 c i arg1 harg1 arg2 harg2 arg3 harg3 arg4 harg4 arg5 harg5 hc0 hc1 x0 = (k0_pay4 x0 (k0_pay2 (F := F)) : Vec F S1x576 .f32) := by
  unfold sFirst2
  rw [View.read_writes_eq_canon _ _ _ (coverFirst2 c i arg1 harg1 arg2 harg2 arg3 harg3 arg4 harg4 arg5 harg5 hc0 hc1 x0)]
  unfold runFirst
  dsimp only
  sl_unfold_words
  -- two stores went into this accumulator, each over all of it: the reset's (`k0_pay2`, the zeros) and then the
  -- accumulate's, which therefore decides the contents; the value it added to was loaded after the reset's
  -- store, so it is `k0_pay2`, the zeros
  rw [View.canon_cons_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem sMid1_eq (hc0 : ¬isFirst i) (hc1 : ¬isLast i) (x0 : Vec F S5000x576 .f32) (xs1 xs2 : Vec F S1x576 .f32) :
    sMid1 c i arg1 harg1 arg2 harg2 arg3 harg3 arg4 harg4 arg5 harg5 hc0 hc1 x0 xs1 xs2 = (k0_pay3 x0 xs1 : Vec F S1x576 .f32) := by
  unfold sMid1
  rw [View.read_writes_eq_canon _ _ _ (coverMid1 c i arg1 harg1 arg2 harg2 arg3 harg3 arg4 harg4 arg5 harg5 hc0 hc1 x0 xs1 xs2)]
  unfold runMid
  dsimp only
  sl_unfold_words
  -- one store went into this accumulator, over all of it, so its payload is the contents; the value it added to was
  -- loaded from the accumulator as the point found it (`xs1`), and the tile from its buffer
  rw [View.canon_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem sMid2_eq (hc0 : ¬isFirst i) (hc1 : ¬isLast i) (x0 : Vec F S5000x576 .f32) (xs1 xs2 : Vec F S1x576 .f32) :
    sMid2 c i arg1 harg1 arg2 harg2 arg3 harg3 arg4 harg4 arg5 harg5 hc0 hc1 x0 xs1 xs2 = (k0_pay4 x0 xs2 : Vec F S1x576 .f32) := by
  unfold sMid2
  rw [View.read_writes_eq_canon _ _ _ (coverMid2 c i arg1 harg1 arg2 harg2 arg3 harg3 arg4 harg4 arg5 harg5 hc0 hc1 x0 xs1 xs2)]
  unfold runMid
  dsimp only
  sl_unfold_words
  -- one store went into this accumulator, over all of it, so its payload is the contents; the value it added to was
  -- loaded from the accumulator as the point found it (`xs2`), and the tile from its buffer
  rw [View.canon_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem sLast1_eq (hc0 : ¬isFirst i) (hc1 : isLast i) (x0 : Vec F S5000x576 .f32) (xs1 xs2 : Vec F S1x576 .f32) :
    sLast1 c i arg1 harg1 arg2 harg2 arg3 harg3 arg4 harg4 arg5 harg5 hc0 hc1 x0 xs1 xs2 = (k0_pay3 x0 xs1 : Vec F S1x576 .f32) := by
  unfold sLast1
  rw [View.read_writes_eq_canon _ _ _ (coverLast1 c i arg1 harg1 arg2 harg2 arg3 harg3 arg4 harg4 arg5 harg5 hc0 hc1 x0 xs1 xs2)]
  unfold runLast
  dsimp only
  sl_unfold_words
  -- one store went into this accumulator, over all of it, so its payload is the contents; the value it added to was
  -- loaded from the accumulator as the point found it (`xs1`), and the tile from its buffer
  rw [View.canon_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem sLast2_eq (hc0 : ¬isFirst i) (hc1 : isLast i) (x0 : Vec F S5000x576 .f32) (xs1 xs2 : Vec F S1x576 .f32) :
    sLast2 c i arg1 harg1 arg2 harg2 arg3 harg3 arg4 harg4 arg5 harg5 hc0 hc1 x0 xs1 xs2 = (k0_pay4 x0 xs2 : Vec F S1x576 .f32) := by
  unfold sLast2
  rw [View.read_writes_eq_canon _ _ _ (coverLast2 c i arg1 harg1 arg2 harg2 arg3 harg3 arg4 harg4 arg5 harg5 hc0 hc1 x0 xs1 xs2)]
  unfold runLast
  dsimp only
  sl_unfold_words
  -- one store went into this accumulator, over all of it, so its payload is the contents; the value it added to was
  -- loaded from the accumulator as the point found it (`xs2`), and the tile from its buffer
  rw [View.canon_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem oLast1_eq (hc0 : ¬isFirst i) (hc1 : isLast i) (x0 : Vec F S5000x576 .f32) (xs1 xs2 : Vec F S1x576 .f32) :
    oLast1 c i arg1 harg1 arg2 harg2 arg3 harg3 arg4 harg4 arg5 harg5 hc0 hc1 x0 xs1 xs2 = (k0_pay3 x0 xs1 : Vec F S1x576 .f32) := by
  unfold oLast1
  rw [View.read_writes_eq_canon _ _ _ (coverLastO1 c i arg1 harg1 arg2 harg2 arg3 harg3 arg4 harg4 arg5 harg5 hc0 hc1 x0 xs1 xs2)]
  unfold runLast
  dsimp only
  sl_unfold_words
  -- one store went into this result buffer, over all of it: the value loaded from the accumulator after the
  -- accumulate's store, which covers the accumulator and so is read back whole (the column sums added to `xs1`)
  rw [View.canon_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]
theorem oLast2_eq (hc0 : ¬isFirst i) (hc1 : isLast i) (x0 : Vec F S5000x576 .f32) (xs1 xs2 : Vec F S1x576 .f32) :
    oLast2 c i arg1 harg1 arg2 harg2 arg3 harg3 arg4 harg4 arg5 harg5 hc0 hc1 x0 xs1 xs2 = (k0_pay4 x0 xs2 : Vec F S1x576 .f32) := by
  unfold oLast2
  rw [View.read_writes_eq_canon _ _ _ (coverLastO2 c i arg1 harg1 arg2 harg2 arg3 harg3 arg4 harg4 arg5 harg5 hc0 hc1 x0 xs1 xs2)]
  unfold runLast
  dsimp only
  sl_unfold_words
  -- one store went into this result buffer, over all of it: the value loaded from the accumulator after the
  -- accumulate's store, which covers the accumulator and so is read back whole (the column sums of squares added to `xs2`)
  rw [View.canon_unit_zero (S := S1x576) zero_offsets]
  simp only [View.readAt_eq_ld, harg1.read_unread, harg4.read_unread, harg5.read_unread,
    View.ld_unit_zero (S := S1x576) zero_offsets, View.ld_unit_zero (S := S5000x576) zero_offsets,
    View.readCov_unit_zero (S := S1x576) _ zero_offsets]

end Cert.KernelIdeal.Region

end
-- ==== Proof.KernelIdealSums.lean ====
/-
  The kernel's two results are the table's column sums and column sums of squares.

  The tile the first window holds at point `t` is rows `5000 t … 5000 t + 4999` of the table. With each case's
  stores read as the kernel's own arithmetic, the accumulators after point `n` are the running sums over the
  tiles so far; after the last point they hold every column's sum and sum of squares, and the one write-back of
  each result window, at the last point, puts exactly these rows into the two result arrays.
-/
import proofs.«116832_j78176994722585_1_alg».proof.Proof.KernelIdealFrame
import proofs.«116832_j78176994722585_1_alg».proof.Proof.KernelIdealPieces
import proofs.«116832_j78176994722585_1_alg».proof.Proof.KernelAcc
import proofs.«116832_j78176994722585_1_alg».proof.Proof.Cols
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Moments

variable (m : (ℓ : Loc nD τ sig) → Buf (Elt Ideal) ℓ)

/-- The tiles by their number (beyond the grid: zeros, never read). -/
def tiles (c : Dev nD) : ℕ → Vec Ideal S5000x576 .f32 := fun t =>
  if h : t < cfg0.N then tile m c 0 ⟨t, h⟩ else fun _ => (0 : EReal)

/-- Inside the grid the tile by number is the first window's block at that point. -/
private theorem tiles_lt (c : Dev nD) (t : ℕ) (h : t < cfg0.N) : tiles m c t = tile m c 0 ⟨t, h⟩ := by
  unfold tiles; exact dif_pos h

/-- Entry `r` of column `i` of tile `t` is entry `5000 t + r` of the table's column. -/
theorem tiles_apply (c : Dev nD) (t : Fin 40) (r : Fin 5000) (i : SV.Idx) :
    tiles m c t.val (Acc.tileIdx i r) = m ((c : Thread nD τ).loc main_arg0) (colIdx i ⟨5000 * t.val + r.val, by omega⟩) := by
  have hN : cfg0.N = 40 := N_0
  have ht : t.val < cfg0.N := by rw [hN]; exact t.isLt
  -- the first window's block at point `t` is block `(t, 0)` of the table, decided once over the grid
  have hi : ∀ s : Fin cfg0.N, win0_0.index s (0 : Fin 2) = s.val ∧ win0_0.index s (1 : Fin 2) = 0 :=
    (by decide +kernel : ∀ s : Fin grid0.N, win0_0.index s (0 : Fin 2) = s.val ∧ win0_0.index s (1 : Fin 2) = 0)
  unfold tiles
  rw [dif_pos ht]
  unfold tile
  rw [View.read_apply]
  show m ((c : Thread nD τ).loc main_arg0) _ = m ((c : Thread nD τ).loc main_arg0) _
  congr 1
  -- a block's coordinate in the table is (block index) × (block size) + the coordinate inside the block
  funext a
  apply Fin.ext
  match a with
  | ⟨0, _⟩ =>
    show win0_0.index ⟨t.val, ht⟩ (0 : Fin 2) * 5000 + 1 * r.val = 5000 * t.val + r.val
    have h0 : win0_0.index ⟨t.val, ht⟩ (0 : Fin 2) = t.val := (hi ⟨t.val, ht⟩).1
    rw [h0]; omega
  | ⟨1, _⟩ =>
    show win0_0.index ⟨t.val, ht⟩ (1 : Fin 2) * 576 + 1 * (i 0).val = (i 0).val
    have h1 : win0_0.index ⟨t.val, ht⟩ (1 : Fin 2) = 0 := (hi ⟨t.val, ht⟩).2
    rw [h1]; omega

/-- The accumulators depend on the point's number only, not on how it is written or bounded. -/
private theorem accs_congr (c : Dev nD) (a b : ℕ) (h : a = b) (ha : a < cfg0.N) (hb : b < cfg0.N) :
    accs m c a ha = accs m c b hb := by
  subst h; rfl

/-- What the point before point `n + 1` left is what point `n` left. -/
private theorem prev_succ (c : Dev nD) (n : ℕ) (hn : n + 1 < cfg0.N) :
    prev m c ⟨n + 1, hn⟩ = accs m c n (Nat.lt_of_succ_lt hn) :=
  accs_congr m c _ _ (Nat.add_sub_cancel n 1) _ _

/-- The accumulators after point `n` are the running sums over the tiles. -/
theorem accs_eq (c : Dev nD) (n : ℕ) (hn : n < cfg0.N) :
    (accs m c n hn).1 = Acc.acc1 (tiles m c) n ∧ (accs m c n hn).2 = Acc.acc2 (tiles m c) n := by
  induction n with
  | zero =>
    -- the first point: the reset's zeros, then the first tile's sums added
    have h := accs_first m c ⟨0, hn⟩ rfl (show ¬(0 : ℕ) = 39 by decide)
    rw [sFirst1_eq, sFirst2_eq] at h
    have e1 : (accs m c 0 hn).1 = k0_pay3 (tile m c 0 ⟨0, hn⟩) (k0_pay1 (F := Ideal)) := congrArg Prod.fst h
    have e2 : (accs m c 0 hn).2 = k0_pay4 (tile m c 0 ⟨0, hn⟩) (k0_pay2 (F := Ideal)) := congrArg Prod.snd h
    rw [e1, e2, ← tiles_lt m c 0 hn]
    exact ⟨rfl, rfl⟩
  | succ n ih =>
    have hn' : n < cfg0.N := Nat.lt_of_succ_lt hn
    obtain ⟨ih1, ih2⟩ := ih hn'
    -- a later point adds its tile's sums to what the point before left; the last point and the middle
    -- points differ only in the copy-out, which does not touch the accumulators
    have e : (accs m c (n + 1) hn).1 = k0_pay3 (tile m c 0 ⟨n + 1, hn⟩) (accs m c n hn').1
        ∧ (accs m c (n + 1) hn).2 = k0_pay4 (tile m c 0 ⟨n + 1, hn⟩) (accs m c n hn').2 := by
      by_cases h39 : n + 1 = 39
      · have h := accs_last m c ⟨n + 1, hn⟩ (Nat.succ_ne_zero n) h39
        rw [sLast1_eq, sLast2_eq, prev_succ m c n hn] at h
        exact ⟨congrArg Prod.fst h, congrArg Prod.snd h⟩
      · have h := accs_mid m c ⟨n + 1, hn⟩ (Nat.succ_ne_zero n) h39
        rw [sMid1_eq, sMid2_eq, prev_succ m c n hn] at h
        exact ⟨congrArg Prod.fst h, congrArg Prod.snd h⟩
    rw [e.1, e.2, ih1, ih2, ← tiles_lt m c (n + 1) hn]
    exact ⟨rfl, rfl⟩

/-- The last point of the grid. -/
private abbrev tLast : Fin cfg0.N := ⟨39, by rw [show cfg0.N = 40 from N_0]; decide⟩

/-- What the last point copies into the two result buffers: the accumulators as that point leaves them, the
    running sums over all forty tiles. -/
private theorem outs_last_eq (c : Dev nD) :
    (outs m c tLast).1 = Acc.acc1 (tiles m c) 39 ∧ (outs m c tLast).2 = Acc.acc2 (tiles m c) 39 := by
  have h38 : 38 < cfg0.N := Nat.lt_of_succ_lt tLast.isLt
  have h := outs_last m c tLast (show ¬(39 : ℕ) = 0 by decide) rfl
  have hp : prev m c tLast = accs m c 38 h38 := accs_congr m c _ _ rfl _ _
  obtain ⟨a1, a2⟩ := accs_eq m c 38 h38
  rw [oLast1_eq, oLast2_eq, hp, a1, a2, ← tiles_lt m c 39 tLast.isLt] at h
  exact ⟨congrArg Prod.fst h, congrArg Prod.snd h⟩

/-- The result windows' one block is the whole `[1, 576]` array: its block index is `(0, 0)` at every point. -/
private theorem idx1_zero : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
private theorem idx2_zero : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The first result array after the run is what the last point copied out: the window is written back once, at
    the last point, and the block written is the whole array. -/
private theorem arr1_eq (c : Dev nD) :
    (dats m 0 c).arrAt 1 cfg0.N = ((outs m c tLast).1 : Vec Ideal S1x576 .f32) := by
  have hN : cfg0.N = 40 := N_0
  refine (dats m 0 c).arrAt_eq_of_cover 1 _ (fun t hf => ?_) (fun i => ?_)
  · -- the only point that writes back is the last
    have h1 : t.val = 39 := by have := (flush0_1 t).mp hf; have := t.isLt; omega
    obtain rfl : t = tLast := Fin.ext h1
    show (cfg0.win 1).cut (grid0.coords tLast) ((dats m 0 c).after 1 tLast) = _
    rw [after_1]
    have hz' : (fun a => win0_1.index tLast a * main_v0_0.ty.shape.size a) = fun _ => 0 :=
      funext fun a => by
        match a with
        | ⟨0, _⟩ => show win0_1.index tLast (0 : Fin 2) * 1 = 0; rw [(idx1_zero tLast).1]
        | ⟨1, _⟩ => show win0_1.index tLast (1 : Fin 2) * 576 = 0; rw [(idx1_zero tLast).2]
    exact (Memref.read_access_unit_zero (Elt Ideal) main_v0_0 hz' (fun a => by rw [congrFun hz' a]; simp) _).symm
  · -- and its block holds every index of the array
    refine ⟨tLast, (flush0_1 tLast).mpr rfl, ?_⟩
    show i ∈ ((View.whole main_v0_0).slice (win0_1.rect tLast)).set
    rw [View.set_slice_whole, Rect.mem_set_unit]
    intro a
    have h0 : (i 0 : Nat) < 1 := (i 0).isLt
    have h1 : (i 1 : Nat) < 576 := (i 1).isLt
    match a with
    | ⟨0, _⟩ =>
      show win0_1.index tLast 0 * win0_1.size 0 ≤ (i 0 : Nat) ∧ (i 0 : Nat) < win0_1.index tLast 0 * win0_1.size 0 + win0_1.xsize (grid0.coords tLast) 0
      rw [(idx1_zero tLast).1, show win0_1.xsize (grid0.coords tLast) 0 = 1 from by decide +kernel]; omega
    | ⟨1, _⟩ =>
      show win0_1.index tLast 1 * win0_1.size 1 ≤ (i 1 : Nat) ∧ (i 1 : Nat) < win0_1.index tLast 1 * win0_1.size 1 + win0_1.xsize (grid0.coords tLast) 1
      rw [(idx1_zero tLast).2, show win0_1.xsize (grid0.coords tLast) 1 = 576 from by decide +kernel]; omega

/-- The first result array ends holding each column's sum, -/
theorem row1 (c : Dev nD) (i : SV.Idx) :
    ((dats m 0 c).arrAt 1 cfg0.N : S1x576.Idx → EReal) (Acc.rowIdx i) = colSum (m ((c : Thread nD τ).loc main_arg0)) i := by
  rw [arr1_eq, (outs_last_eq m c).1]
  exact Acc.acc1_last _ (tiles m c) (tiles_apply m c) i

/-- Likewise the second result array is what the last point copied into the second result buffer. -/
private theorem arr2_eq (c : Dev nD) :
    (dats m 0 c).arrAt 2 cfg0.N = ((outs m c tLast).2 : Vec Ideal S1x576 .f32) := by
  have hN : cfg0.N = 40 := N_0
  refine (dats m 0 c).arrAt_eq_of_cover 2 _ (fun t hf => ?_) (fun i => ?_)
  · -- the only point that writes back is the last
    have h1 : t.val = 39 := by have := (flush0_2 t).mp hf; have := t.isLt; omega
    obtain rfl : t = tLast := Fin.ext h1
    show (cfg0.win 2).cut (grid0.coords tLast) ((dats m 0 c).after 2 tLast) = _
    rw [after_2]
    have hz' : (fun a => win0_2.index tLast a * main_v0_1.ty.shape.size a) = fun _ => 0 :=
      funext fun a => by
        match a with
        | ⟨0, _⟩ => show win0_2.index tLast (0 : Fin 2) * 1 = 0; rw [(idx2_zero tLast).1]
        | ⟨1, _⟩ => show win0_2.index tLast (1 : Fin 2) * 576 = 0; rw [(idx2_zero tLast).2]
    exact (Memref.read_access_unit_zero (Elt Ideal) main_v0_1 hz' (fun a => by rw [congrFun hz' a]; simp) _).symm
  · -- and its block holds every index of the array
    refine ⟨tLast, (flush0_2 tLast).mpr rfl, ?_⟩
    show i ∈ ((View.whole main_v0_1).slice (win0_2.rect tLast)).set
    rw [View.set_slice_whole, Rect.mem_set_unit]
    intro a
    have h0 : (i 0 : Nat) < 1 := (i 0).isLt
    have h1 : (i 1 : Nat) < 576 := (i 1).isLt
    match a with
    | ⟨0, _⟩ =>
      show win0_2.index tLast 0 * win0_2.size 0 ≤ (i 0 : Nat) ∧ (i 0 : Nat) < win0_2.index tLast 0 * win0_2.size 0 + win0_2.xsize (grid0.coords tLast) 0
      rw [(idx2_zero tLast).1, show win0_2.xsize (grid0.coords tLast) 0 = 1 from by decide +kernel]; omega
    | ⟨1, _⟩ =>
      show win0_2.index tLast 1 * win0_2.size 1 ≤ (i 1 : Nat) ∧ (i 1 : Nat) < win0_2.index tLast 1 * win0_2.size 1 + win0_2.xsize (grid0.coords tLast) 1
      rw [(idx2_zero tLast).2, show win0_2.xsize (grid0.coords tLast) 1 = 576 from by decide +kernel]; omega

/-- and the second each column's sum of squares. -/
theorem row2 (c : Dev nD) (i : SV.Idx) :
    ((dats m 0 c).arrAt 2 cfg0.N : S1x576.Idx → EReal) (Acc.rowIdx i) = colSumSq (m ((c : Thread nD τ).loc main_arg0)) i := by
  rw [arr2_eq, (outs_last_eq m c).2]
  exact Acc.acc2_last _ (tiles m c) (tiles_apply m c) i

end Cert.KernelIdeal.Region

end
-- ==== Proof.Finite.lean ====
/-
  From the precondition to "every entry of the table is a real number".

  The precondition is the conjunction of three tests `|v| < +∞`, one per argument, each taken over all entries.
  Only the first argument's test is needed: it says every entry of the table is neither infinity.
-/
import proofs.«116832_j78176994722585_1_alg».proof.Proof.Gen.Pre_finite_inputs
import proofs.«116832_j78176994722585_1_alg».proof.Proof.LibFiniteSums
import Idealize.ShloMosaic.Lib.ReduceAll
import Idealize.ShloMosaic.PureOps.Ideal.Laws

noncomputable section

namespace Cert.Moments

open Idealize.ShloMosaic Cert.LibFinite

/-- The single-precision word `0x7F800000` is `+∞`: its sign bit is clear, its exponent field is all ones
    and its fraction field is zero. -/
private theorem ofBits_inf : Ideal.ofBits .f32 0x7F800000#32 = ⊤ := by
  simp [Ideal.ofBits, Ideal.ieee]

/-- One entry's test read back: if `|a| < +∞` holds then `a` is a real number.
    Here `|a|` is `max a (−a)`. Were the test to fail, the comparison's bit would be 0 and not 1; so
    `max a (−a) < ⊤`, that is `a < ⊤` and `−a < ⊤`. The first says `a ≠ ⊤`. For the second, `−⊥ = ⊤`,
    so `a = ⊥` would give `⊤ < ⊤`. -/
private theorem isReal_of_abs_lt_inf (a : EReal)
    (h : Ideal.cmp .olt (max a (-a)) (Ideal.ofBits .f32 0x7F800000#32) = 1#1) : IsReal a := by
  rw [ofBits_inf] at h
  have hlt : max a (-a) < ⊤ := by
    by_contra hn
    -- a comparison that does not hold yields the bit 0
    have h0 : Ideal.cmp .olt (max a (-a)) ⊤ = 0#1 := by
      unfold Ideal.cmp
      rw [decide_eq_false hn]
      rfl
    rw [h0] at h
    exact absurd h (by decide)
  obtain ⟨h1, h2⟩ := max_lt_iff.mp hlt
  refine ⟨ne_of_lt h1, fun hb => ?_⟩
  rw [hb, EReal.neg_bot] at h2
  exact lt_irrefl _ h2

/-- If the precondition's predicate is all ones at the extended reals, every entry of the first argument is real. -/
theorem isReal_of_pre [Cert.Pre_finite_inputs.Facts]
    (X : FVec Ideal Cert.Pre_finite_inputs.S200000x576 .f32) (mu : FVec Ideal Cert.Pre_finite_inputs.S1728 .f32)
    (W : FVec Ideal Cert.Pre_finite_inputs.S1728x4 .f32)
    (h : Cert.Pre_finite_inputs.fn (F := Ideal) X mu W = (fun _ => 1#1)) :
    ∀ j, IsReal (X j) := by
  intro j
  -- the predicate's result has rank 0, hence exactly one index; evaluate the hypothesis there
  have h0 := congrFun h (fun a => a.elim0)
  dsimp only [Cert.Pre_finite_inputs.fn] at h0
  -- the result is `(t₁ ∧ t₂) ∧ t₃`, one test per argument; it is 1, so the first argument's test `t₁` is 1
  have h1 := (IntOp.andi_eq_one.1 h0).1
  have h2 := (IntOp.andi_eq_one.1 h1).1
  -- `t₁` is the conjunction over every entry of the table, starting from 1: being 1, it met a 1 at every entry
  haveI : Subsingleton Cert.Pre_finite_inputs.S_.Idx := ⟨fun a b => funext fun d => d.elim0⟩
  have h3 := Host.reduce_andi_all _ _ _ _ _ h2 j
  -- at entry `j` that 1 is the comparison `|X j| < +∞`, the constant broadcast to every entry being `+∞`
  exact isReal_of_abs_lt_inf (X j) h3

end Cert.Moments

end
-- ==== Proof.lean ====
/-
  The certificate: the moments kernel against its reference.

  Both programs reduce a table `X` of 200000 rows and 576 columns to three numbers per column, lay them out as one
  row of 1728, subtract `mu` and contract against `W`. The reference computes, per column, the mean `μ`, the mean of
  the deviations `X − μ` and the mean of their squares. The kernel streams the table once, in 40 tiles of 5000 rows,
  accumulating each column's sum and sum of squares, and from those takes the mean, a literal zero, and the mean
  of the squares less `μ²`.

  On the extended reals the two agree when the table's entries are real, which the precondition says: the
  deviations from the mean then sum to zero, and the mean of the squared deviations is the raw-moment variance.
  A sum taken tile by tile is the whole sum by associativity alone. The three frames are the launch's run
  (for the kernel, at words and at the extended reals) and the reference's run; the idealization rewrote
  nothing, so its conjunct is trivial.
-/
import proofs.«116832_j78176994722585_1_alg».proof.Defs
import proofs.«116832_j78176994722585_1_alg».proof.Proof.Gen.Kernel
import proofs.«116832_j78176994722585_1_alg».proof.Proof.Gen.KernelIdeal
import proofs.«116832_j78176994722585_1_alg».proof.Proof.Gen.ReferenceIdeal
import proofs.«116832_j78176994722585_1_alg».proof.Proof.Gen.Pre_finite_inputs
import proofs.«116832_j78176994722585_1_alg».proof.Proof.Gen.ReferenceIdeal.Run
import proofs.«116832_j78176994722585_1_alg».proof.Proof.KernelKept
import proofs.«116832_j78176994722585_1_alg».proof.Proof.KernelIdealKept
import proofs.«116832_j78176994722585_1_alg».proof.Proof.KernelIdealRun
import proofs.«116832_j78176994722585_1_alg».proof.Proof.KernelIdealSums
import proofs.«116832_j78176994722585_1_alg».proof.Proof.KernelTail
import proofs.«116832_j78176994722585_1_alg».proof.Proof.RefValue
import proofs.«116832_j78176994722585_1_alg».proof.Proof.Finite
import Idealize.ShloMosaic.Adequacy
import Idealize.ShloMosaic.Init

noncomputable section

namespace Cert.Proof

open Idealize.ShloMosaic Idealize.ShloMosaic.TcCoe Idealize.SL.Sem Cert.Moments

/-- The kernel's program, at words, runs to its end and leaves its arguments as they were. -/
theorem frame_kernel : Cert.frame_Kernel := fun m ρ _ => Cert.Kernel.Region.frame (F := Bits) m ρ

/-- The same program read at the extended reals. -/
theorem frame_kernelIdeal : Cert.frame_KernelIdeal := fun m ρ _ => Cert.KernelIdeal.Region.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's program ends with its result at the shared tail of the table's column means, zeros and raw-moment
    variances: the two result rows of the launch are the column sums and the column sums of squares. -/
theorem kernel_result (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v18)
        = Cert.ReferenceIdeal.RefValue.tail (colMean (m ((c.tc : Thread Cert.KernelIdeal.nD Cert.KernelIdeal.τ).loc Cert.KernelIdeal.main_arg0))) (fun _ => (0 : EReal))
            (colVar (m ((c.tc : Thread Cert.KernelIdeal.nD Cert.KernelIdeal.τ).loc Cert.KernelIdeal.main_arg0)))
            (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨(h c).1.trans
      (Cert.KernelIdeal.Tail.hostTail_eq (m ((c.tc : Thread Cert.KernelIdeal.nD Cert.KernelIdeal.τ).loc Cert.KernelIdeal.main_arg0)) _ _
        (Cert.KernelIdeal.Region.row1 m c) (Cert.KernelIdeal.Region.row2 m c) _ _), (h c).2⟩)
    (Cert.KernelIdeal.Region.run_value m ρ)

/-- From memories that agree on the arguments both programs end with the same result: the reference's stages, for a
    table of real numbers, are the column's mean, zero and raw-moment variance, the kernel's too, and the last
    eight operations are shared. -/
theorem algebraic : Cert.algebraic_KernelIdeal_ReferenceIdeal := by
  intro m ρ m' ρ' hpre hagree
  refine ⟨_, kernel_result m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans
    (Cert.ReferenceIdeal.RefValue.ref_result _ (Cert.Moments.isReal_of_pre _ _ _ (hpre c)) _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
